-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32x128 : Shape := ⟨3, ![2048, 32, 128]⟩
abbrev S2048x32x8 : Shape := ⟨3, ![2048, 32, 8]⟩
abbrev S256x128 : Shape := ⟨2, ![256, 128]⟩
abbrev S256 : Shape := ⟨1, ![256]⟩
abbrev S256x256 : Shape := ⟨2, ![256, 256]⟩
abbrev S768x256 : Shape := ⟨2, ![768, 256]⟩
abbrev S768 : Shape := ⟨1, ![768]⟩
abbrev S1x256 : Shape := ⟨2, ![1, 256]⟩
abbrev S1 : Shape := ⟨1, ![1]⟩
abbrev S_ : Shape := ⟨0, ![]⟩

class Facts : Prop where
  bcast_S_S2048x32x128 : S_.BroadcastsInDim S2048x32x128 (![] : Fin 0 → Fin S2048x32x128.rank)
  reducesTo_S2048x32x128_S_d0_1_2 : S2048x32x128.ReducesTo [0, 1, 2] S_
  h_S_ : 0 < S_.numel
  bcast_S_S2048x32x8 : S_.BroadcastsInDim S2048x32x8 (![] : Fin 0 → Fin S2048x32x8.rank)
  reducesTo_S2048x32x8_S_d0_1_2 : S2048x32x8.ReducesTo [0, 1, 2] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S1x256 .f32) (main_v50 : FVec F S1x256 .f32) : IVec S_ 1 :=
  let main_v51 : IVec S1x256 1 := cmpf .olt main_v49 main_v50
  let main_c_19 : IVec S_ 1 := constantI S_ 1 1#1
  let main_v52 : IVec S_ 1 := (fun x v => Host.reduce IntOp.andi x v reducesTo_S1x256_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S768 .f32) (main_arg8 : FVec F S768x256 .f32) (main_arg9 : FVec F S768 .f32) (main_arg10 : FVec F S1x256 .f32) (main_arg11 : FVec F S1 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768x256 .f32 := Host.absf main_arg8
  let main_cst_14 : FVec F S_ .f32 := constant S_ .f32 0x7F800000#32
  let main_v40 : FVec F S768x256 .f32 := broadcastInDim S768x256 ![] bcast_S_S768x256 main_cst_14
  let main_v41 : IVec S768x256 1 := cmpf .olt main_v39 main_v40
  let main_c_15 : IVec S_ 1 := constantI S_ 1 1#1
  let main_v42 : IVec S_ 1 := (fun x v => Host.reduce IntOp.andi x v reducesTo_S768x256_S_d0_1 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S1x256 .f32 := Host.absf main_arg10
  let main_cst_18 : FVec F S_ .f32 := constant S_ .f32 0x7F800000#32
  let main_v50 : FVec F S1x256 .f32 := broadcastInDim S1x256 ![] bcast_S_S1x256 main_cst_18
  fn_part3 (F := F) main_arg11 main_v48 main_v49 main_v50

def fn_part1 {F : FTy → Type} [FloatOps F] (main_arg4 : FVec F S256x256 .f32) (main_arg5 : FVec F S256 .f32) (main_arg6 : FVec F S768x256 .f32) (main_arg7 : FVec F S768 .f32) (main_arg8 : FVec F S768x256 .f32) (main_arg9 : FVec F S768 .f32) (main_arg10 : FVec F S1x256 .f32) (main_arg11 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S768x256 .f32 := Host.absf main_arg6
  let main_cst_10 : FVec F S_ .f32 := constant S_ .f32 0x7F800000#32
  let main_v30 : FVec F S768x256 .f32 := broadcastInDim S768x256 ![] bcast_S_S768x256 main_cst_10
  let main_v31 : IVec S768x256 1 := cmpf .olt main_v29 main_v30
  let main_c_11 : IVec S_ 1 := constantI S_ 1 1#1
  let main_v32 : IVec S_ 1 := (fun x v => Host.reduce IntOp.andi x v reducesTo_S768x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2048x32x128 .f32) (main_arg1 : FVec F S2048x32x8 .f32) (main_arg2 : FVec F S256x128 .f32) (main_arg3 : FVec F S256 .f32) (main_arg4 : FVec F S256x256 .f32) (main_arg5 : FVec F S256 .f32) (main_arg6 : FVec F S768x256 .f32) (main_arg7 : FVec F S768 .f32) (main_arg8 : FVec F S768x256 .f32) (main_arg9 : FVec F S768 .f32) (main_arg10 : FVec F S1x256 .f32) (main_arg11 : FVec F S1 .f32) : IVec S_ 1 :=
  let main_v0 : FVec F S2048x32x128 .f32 := Host.absf main_arg0
  let main_cst : FVec F S_ .f32 := constant S_ .f32 0x7F800000#32
  let main_v1 : FVec F S2048x32x128 .f32 := broadcastInDim S2048x32x128 ![] bcast_S_S2048x32x128 main_cst
  let main_v2 : IVec S2048x32x128 1 := cmpf .olt main_v0 main_v1
  let main_c : IVec S_ 1 := constantI S_ 1 1#1
  let main_v3 : IVec S_ 1 := (fun x v => Host.reduce IntOp.andi x v reducesTo_S2048x32x128_S_d0_1_2 h_S_) main_v2 main_c
  let main_v4 : FVec F S2048x32x8 .f32 := Host.absf main_arg1
  let main_cst_0 : FVec F S_ .f32 := constant S_ .f32 0x7F800000#32
  let main_v5 : FVec F S2048x32x8 .f32 := broadcastInDim S2048x32x8 ![] bcast_S_S2048x32x8 main_cst_0
  let main_v6 : IVec S2048x32x8 1 := cmpf .olt main_v4 main_v5
  let main_c_1 : IVec S_ 1 := constantI S_ 1 1#1
  let main_v7 : IVec S_ 1 := (fun x v => Host.reduce IntOp.andi x v reducesTo_S2048x32x8_S_d0_1_2 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_v13 main_v16
-- ==== Kernel.lean ====
abbrev S2048x32x128 : Shape := ⟨3, ![2048, 32, 128]⟩
abbrev S2048x32x8 : Shape := ⟨3, ![2048, 32, 8]⟩
abbrev S256x128 : Shape := ⟨2, ![256, 128]⟩
abbrev S256 : Shape := ⟨1, ![256]⟩
abbrev S256x256 : Shape := ⟨2, ![256, 256]⟩
abbrev S768x256 : Shape := ⟨2, ![768, 256]⟩
abbrev S768 : Shape := ⟨1, ![768]⟩
abbrev S1x256 : Shape := ⟨2, ![1, 256]⟩
abbrev S1 : Shape := ⟨1, ![1]⟩
abbrev S65536x128 : Shape := ⟨2, ![65536, 128]⟩
abbrev S128x256 : Shape := ⟨2, ![128, 256]⟩
abbrev S256x768 : Shape := ⟨2, ![256, 768]⟩
abbrev S256x1 : Shape := ⟨2, ![256, 1]⟩
abbrev S1x768 : Shape := ⟨2, ![1, 768]⟩
abbrev S1x1 : Shape := ⟨2, ![1, 1]⟩
abbrev S65536x1 : Shape := ⟨2, ![65536, 1]⟩
abbrev S1024x128 : Shape := ⟨2, ![1024, 128]⟩
abbrev S1024x1 : Shape := ⟨2, ![1024, 1]⟩
abbrev S1024x256 : Shape := ⟨2, ![1024, 256]⟩
abbrev S1024x768 : Shape := ⟨2, ![1024, 768]⟩
abbrev S32x32x256 : Shape := ⟨3, ![32, 32, 256]⟩
abbrev S32x256 : Shape := ⟨2, ![32, 256]⟩
abbrev S32x1x256 : Shape := ⟨3, ![32, 1, 256]⟩
abbrev S2048x32x1 : Shape := ⟨3, ![2048, 32, 1]⟩

abbrev nBuf : Space → Nat
  | .hbm => 25
  | .vmem => 14
  | .smem => 0
  | _ => 0

abbrev bufTy : (tb : Table) → Fin (tcTables nBuf tb) → BufTy
  | .hbm, ⟨0, _⟩ => ⟨S2048x32x128, .f32⟩
  | .hbm, ⟨1, _⟩ => ⟨S2048x32x8, .f32⟩
  | .hbm, ⟨2, _⟩ => ⟨S256x128, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S768x256, .f32⟩
  | .hbm, ⟨7, _⟩ => ⟨S768, .f32⟩
  | .hbm, ⟨8, _⟩ => ⟨S768x256, .f32⟩
  | .hbm, ⟨9, _⟩ => ⟨S768, .f32⟩
  | .hbm, ⟨10, _⟩ => ⟨S1x256, .f32⟩
  | .hbm, ⟨11, _⟩ => ⟨S1, .f32⟩
  | .hbm, ⟨12, _⟩ => ⟨S65536x128, .f32⟩
  | .hbm, ⟨13, _⟩ => ⟨S128x256, .f32⟩
  | .hbm, ⟨14, _⟩ => ⟨S256x256, .f32⟩
  | .hbm, ⟨15, _⟩ => ⟨S256x768, .f32⟩
  | .hbm, ⟨16, _⟩ => ⟨S256x768, .f32⟩
  | .hbm, ⟨17, _⟩ => ⟨S256x1, .f32⟩
  | .hbm, ⟨18, _⟩ => ⟨S1x256, .f32⟩
  | .hbm, ⟨19, _⟩ => ⟨S1x256, .f32⟩
  | .hbm, ⟨20, _⟩ => ⟨S1x768, .f32⟩
  | .hbm, ⟨21, _⟩ => ⟨S1x768, .f32⟩
  | .hbm, ⟨22, _⟩ => ⟨S1x1, .f32⟩
  | .hbm, ⟨23, _⟩ => ⟨S65536x1, .f32⟩
  | .hbm, ⟨24, _⟩ => ⟨S2048x32x1, .f32⟩
  | .local _ .vmem, ⟨0, _⟩ => ⟨S1024x128, .f32⟩
  | .local _ .vmem, ⟨1, _⟩ => ⟨S1024x128, .f32⟩
  | .local _ .vmem, ⟨2, _⟩ => ⟨S128x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x768, .f32⟩
  | .local _ .vmem, ⟨7, _⟩ => ⟨S1x768, .f32⟩
  | .local _ .vmem, ⟨8, _⟩ => ⟨S256x768, .f32⟩
  | .local _ .vmem, ⟨9, _⟩ => ⟨S1x768, .f32⟩
  | .local _ .vmem, ⟨10, _⟩ => ⟨S256x1, .f32⟩
  | .local _ .vmem, ⟨11, _⟩ => ⟨S1x1, .f32⟩
  | .local _ .vmem, ⟨12, _⟩ => ⟨S1024x1, .f32⟩
  | .local _ .vmem, ⟨13, _⟩ => ⟨S1024x1, .f32⟩
  | _, _ => ⟨S2048x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S2048x32x128_S65536x128 : S2048x32x128.ShapeCasts S65536x128
  transposes_S256x128_S128x256_1_0 : S256x128.Transposes [1, 0] S128x256
  transposes_S256x256_S256x256_1_0 : S256x256.Transposes [1, 0] S256x256
  transposes_S768x256_S256x768_1_0 : S768x256.Transposes [1, 0] S256x768
  transposes_S1x256_S256x1_1_0 : S1x256.Transposes [1, 0] S256x1
  shapeCasts_S256_S1x256 : S256.ShapeCasts S1x256
  shapeCasts_S768_S1x768 : S768.ShapeCasts S1x768
  shapeCasts_S1_S1x1 : S1.ShapeCasts S1x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  bitsLt_bf16_f32 : FTy.bits .bf16 < FTy.bits .f32
  broadcasts_S1x256_S1024x256 : S1x256.Broadcasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  slices_S1x768_o0_0_S1x256 : S1x768.Slices ![0, 0] S1x256
  slices_S1x768_o0_256_S1x256 : S1x768.Slices ![0, 256] S1x256
  slices_S1x768_o0_512_S1x256 : S1x768.Slices ![0, 512] S1x256
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  shapeCasts_S1024x256_S32x32x256 : S1024x256.ShapeCasts S32x32x256
  reduces_S32x32x256_S32x256 : S32x32x256.Reduces [1] S32x256
  shapeCasts_S32x256_S32x1x256 : S32x256.ShapeCasts S32x1x256
  broadcasts_S32x1x256_S32x32x256 : S32x1x256.Broadcasts S32x32x256
  shapeCasts_S32x32x256_S1024x256 : S32x32x256.ShapeCasts S1024x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  shapeCasts_S65536x1_S2048x32x1 : S65536x1.ShapeCasts S2048x32x1
  dot_S1024x128_S128x256_S1024x256_1_0_0_1_n_n_wf : DotDims.WF S1024x128 S128x256 S1024x256 [1] [0] [0] [1] [] []
  dot_S1024x256_S256x256_S1024x256_1_0_0_1_n_n_wf : DotDims.WF S1024x256 S256x256 S1024x256 [1] [0] [0] [1] [] []
  dot_S1024x256_S256x768_S1024x768_1_0_0_1_n_n_wf : DotDims.WF S1024x256 S256x768 S1024x768 [1] [0] [0] [1] [] []
  dot_S1024x256_S256x1_S1024x1_1_0_0_1_n_n_wf : DotDims.WF S1024x256 S256x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x768.size a ≤ S256x768.size a
  hwx0_5 : ∀ i : grid0.Coords, EltTy.bits .f32 = 32 ∨ (Rect.block (s := S256x768) S256x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x768.size a ≤ S256x768.size a
  hwx0_7 : ∀ i : grid0.Coords, EltTy.bits .f32 = 32 ∨ (Rect.block (s := S256x768) S256x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x768.size a ≤ S1x768.size a
  hwx0_8 : ∀ i : grid0.Coords, EltTy.bits .f32 = 32 ∨ (Rect.block (s := S1x768) S1x768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x1.size a ≤ S256x1.size a
  hwx0_9 : ∀ i : grid0.Coords, EltTy.bits .f32 = 32 ∨ (Rect.block (s := S256x1) S256x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x1.size a ≤ S65536x1.size a
  hwx0_11 : ∀ i : grid0.Coords, EltTy.bits .f32 = 32 ∨ (Rect.block (s := S65536x1) S1024x1.size (cc0_transform_11 i) (hinb0_11 i)).WholeWords (EltTy.packing .f32)

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S256x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S256x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1024x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S2048x32x128 : Shape := ⟨3, ![2048, 32, 128]⟩
abbrev S2048x32x8 : Shape := ⟨3, ![2048, 32, 8]⟩
abbrev S256x128 : Shape := ⟨2, ![256, 128]⟩
abbrev S256 : Shape := ⟨1, ![256]⟩
abbrev S256x256 : Shape := ⟨2, ![256, 256]⟩
abbrev S768x256 : Shape := ⟨2, ![768, 256]⟩
abbrev S768 : Shape := ⟨1, ![768]⟩
abbrev S1x256 : Shape := ⟨2, ![1, 256]⟩
abbrev S1 : Shape := ⟨1, ![1]⟩
abbrev S65536x128 : Shape := ⟨2, ![65536, 128]⟩
abbrev S128x256 : Shape := ⟨2, ![128, 256]⟩
abbrev S65536x256 : Shape := ⟨2, ![65536, 256]⟩
abbrev S_ : Shape := ⟨0, ![]⟩
abbrev S256x768 : Shape := ⟨2, ![256, 768]⟩
abbrev S65536x768 : Shape := ⟨2, ![65536, 768]⟩
abbrev S1x768 : Shape := ⟨2, ![1, 768]⟩
abbrev S2048x32x256 : Shape := ⟨3, ![2048, 32, 256]⟩
abbrev S2048x256 : Shape := ⟨2, ![2048, 256]⟩
abbrev S2048x1x256 : Shape := ⟨3, ![2048, 1, 256]⟩
abbrev S256x1 : Shape := ⟨2, ![256, 1]⟩
abbrev S65536x1 : Shape := ⟨2, ![65536, 1]⟩
abbrev S1x1 : Shape := ⟨2, ![1, 1]⟩
abbrev S2048x32x1 : Shape := ⟨3, ![2048, 32, 1]⟩

abbrev nBuf : Space → Nat
  | .hbm => 130
  | .vmem => 0
  | .smem => 0
  | _ => 0

abbrev hbmTy0_0 (i : Nat) : BufTy := match i % 128 with
  | 0 => ⟨S2048x32x128, .f32⟩
  | 1 => ⟨S2048x32x8, .f32⟩
  | 2 => ⟨S256x128, .f32⟩
  | 3 => ⟨S256, .f32⟩
  | 4 => ⟨S256x256, .f32⟩
  | 5 => ⟨S256, .f32⟩
  | 6 => ⟨S768x256, .f32⟩
  | 7 => ⟨S768, .f32⟩
  | 8 => ⟨S768x256, .f32⟩
  | 9 => ⟨S768, .f32⟩
  | 10 => ⟨S1x256, .f32⟩
  | 11 => ⟨S1, .f32⟩
  | 12 => ⟨S65536x128, .f32⟩
  | 13 => ⟨S128x256, .f32⟩
  | 14 => ⟨S65536x256, .f32⟩
  | 15 => ⟨S1x256, .f32⟩
  | 16 => ⟨S65536x256, .f32⟩
  | 17 => ⟨S65536x256, .f32⟩
  | 18 => ⟨S_, .f32⟩
  | 19 => ⟨S65536x256, .f32⟩
  | 20 => ⟨S65536x256, .f32⟩
  | 21 => ⟨S256x256, .f32⟩
  | 22 => ⟨S65536x256, .f32⟩
  | 23 => ⟨S1x256, .f32⟩
  | 24 => ⟨S65536x256, .f32⟩
  | 25 => ⟨S65536x256, .f32⟩
  | 26 => ⟨S_, .f32⟩
  | 27 => ⟨S65536x256, .f32⟩
  | 28 => ⟨S256x768, .f32⟩
  | 29 => ⟨S65536x768, .f32⟩
  | 30 => ⟨S1x768, .f32⟩
  | 31 => ⟨S65536x768, .f32⟩
  | 32 => ⟨S65536x768, .f32⟩
  | 33 => ⟨S256x768, .f32⟩
  | 34 => ⟨S65536x768, .f32⟩
  | 35 => ⟨S1x768, .f32⟩
  | 36 => ⟨S65536x768, .f32⟩
  | 37 => ⟨S65536x768, .f32⟩
  | 38 => ⟨S65536x256, .f32⟩
  | 39 => ⟨S65536x256, .f32⟩
  | 40 => ⟨S65536x256, .f32⟩
  | 41 => ⟨S65536x256, .f32⟩
  | 42 => ⟨S65536x256, .f32⟩
  | 43 => ⟨S65536x256, .f32⟩
  | 44 => ⟨S65536x256, .f32⟩
  | 45 => ⟨S65536x256, .f32⟩
  | 46 => ⟨S65536x256, .f32⟩
  | 47 => ⟨S_, .f32⟩
  | 48 => ⟨S65536x256, .f32⟩
  | 49 => ⟨S65536x256, .f32⟩
  | 50 => ⟨S_, .f32⟩
  | 51 => ⟨S65536x256, .f32⟩
  | 52 => ⟨S65536x256, .f32⟩
  | 53 => ⟨S65536x256, .f32⟩
  | 54 => ⟨S65536x256, .f32⟩
  | 55 => ⟨S65536x256, .f32⟩
  | 56 => ⟨S_, .f32⟩
  | 57 => ⟨S65536x256, .f32⟩
  | 58 => ⟨S65536x256, .f32⟩
  | 59 => ⟨S_, .f32⟩
  | 60 => ⟨S65536x256, .f32⟩
  | 61 => ⟨S65536x256, .f32⟩
  | 62 => ⟨S65536x256, .f32⟩
  | 63 => ⟨S65536x256, .f32⟩
  | 64 => ⟨S65536x256, .f32⟩
  | 65 => ⟨S_, .f32⟩
  | 66 => ⟨S65536x256, .f32⟩
  | 67 => ⟨S65536x256, .f32⟩
  | 68 => ⟨S65536x256, .f32⟩
  | 69 => ⟨S65536x256, .f32⟩
  | 70 => ⟨S65536x256, .f32⟩
  | 71 => ⟨S2048x32x256, .f32⟩
  | 72 => ⟨S_, .f32⟩
  | 73 => ⟨S2048x256, .f32⟩
  | 74 => ⟨S2048x1x256, .f32⟩
  | 75 => ⟨S2048x32x256, .f32⟩
  | 76 => ⟨S2048x32x256, .f32⟩
  | 77 => ⟨S_, .f32⟩
  | 78 => ⟨S2048x32x256, .f32⟩
  | 79 => ⟨S2048x32x256, .f32⟩
  | 80 => ⟨S65536x256, .f32⟩
  | 81 => ⟨S256x768, .f32⟩
  | 82 => ⟨S65536x768, .f32⟩
  | 83 => ⟨S1x768, .f32⟩
  | 84 => ⟨S65536x768, .f32⟩
  | 85 => ⟨S65536x768, .f32⟩
  | 86 => ⟨S256x768, .f32⟩
  | 87 => ⟨S65536x768, .f32⟩
  | 88 => ⟨S1x768, .f32⟩
  | 89 => ⟨S65536x768, .f32⟩
  | 90 => ⟨S65536x768, .f32⟩
  | 91 => ⟨S65536x256, .f32⟩
  | 92 => ⟨S65536x256, .f32⟩
  | 93 => ⟨S65536x256, .f32⟩
  | 94 => ⟨S65536x256, .f32⟩
  | 95 => ⟨S65536x256, .f32⟩
  | 96 => ⟨S65536x256, .f32⟩
  | 97 => ⟨S65536x256, .f32⟩
  | 98 => ⟨S65536x256, .f32⟩
  | 99 => ⟨S65536x256, .f32⟩
  | 100 => ⟨S_, .f32⟩
  | 101 => ⟨S65536x256, .f32⟩
  | 102 => ⟨S65536x256, .f32⟩
  | 103 => ⟨S_, .f32⟩
  | 104 => ⟨S65536x256, .f32⟩
  | 105 => ⟨S65536x256, .f32⟩
  | 106 => ⟨S65536x256, .f32⟩
  | 107 => ⟨S65536x256, .f32⟩
  | 108 => ⟨S65536x256, .f32⟩
  | 109 => ⟨S_, .f32⟩
  | 110 => ⟨S65536x256, .f32⟩
  | 111 => ⟨S65536x256, .f32⟩
  | 112 => ⟨S_, .f32⟩
  | 113 => ⟨S65536x256, .f32⟩
  | 114 => ⟨S65536x256, .f32⟩
  | 115 => ⟨S65536x256, .f32⟩
  | 116 => ⟨S65536x256, .f32⟩
  | 117 => ⟨S65536x256, .f32⟩
  | 118 => ⟨S_, .f32⟩
  | 119 => ⟨S65536x256, .f32⟩
  | 120 => ⟨S65536x256, .f32⟩
  | 121 => ⟨S65536x256, .f32⟩
  | 122 => ⟨S65536x256, .f32⟩
  | 123 => ⟨S65536x256, .f32⟩
  | 124 => ⟨S256x1, .f32⟩
  | 125 => ⟨S65536x1, .f32⟩
  | 126 => ⟨S1x1, .f32⟩
  | 127 => ⟨S65536x1, .f32⟩
  | _ => ⟨S2048x32x128, .f32⟩

abbrev hbmTy0_1 (i : Nat) : BufTy := match i % 128 with
  | 0 => ⟨S65536x1, .f32⟩
  | 1 => ⟨S2048x32x1, .f32⟩
  | _ => ⟨S2048x32x128, .f32⟩

abbrev hbmTy (i : Nat) : BufTy := match i / 128 with
  | 0 => hbmTy0_0 i
  | 1 => hbmTy0_1 i
  | _ => ⟨S2048x32x128, .f32⟩

abbrev bufTy : (tb : Table) → Fin (tcTables nBuf tb) → BufTy
  | .hbm, ⟨i, _⟩ => hbmTy i
  | _, _ => ⟨S2048x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_cst : Ref sig .tc := ⟨.hbm, 18, rfl⟩
abbrev main_call0_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_0 : Ref sig .tc := ⟨.hbm, 47, rfl⟩
abbrev main_v32 : Ref sig .tc := ⟨.hbm, 48, rfl⟩
abbrev main_v33 : Ref sig .tc := ⟨.hbm, 49, rfl⟩
abbrev main_cst_1 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_2 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_4 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_5 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_6 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_7 : Ref sig .tc := ⟨.hbm, 100, rfl⟩
abbrev main_v78 : Ref sig .tc := ⟨.hbm, 101, rfl⟩
abbrev main_v79 : Ref sig .tc := ⟨.hbm, 102, rfl⟩
abbrev main_cst_8 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_9 : Ref sig .tc := ⟨.hbm, 109, rfl⟩
abbrev main_v85 : Ref sig .tc := ⟨.hbm, 110, rfl⟩
abbrev main_v86 : Ref sig .tc := ⟨.hbm, 111, rfl⟩
abbrev main_cst_10 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_11 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩

abbrev nD : Nat := 1
abbrev τ : Topo := Topo.v7x

variable {F : FTy → Type} [FloatOps F]

class Facts₀ : Prop where
  shapeCasts_S2048x32x128_S65536x128 : S2048x32x128.ShapeCasts S65536x128
  transposes_S256x128_S128x256_1_0 : S256x128.Transposes [1, 0] S128x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  transposes_S256x256_S256x256_1_0 : S256x256.Transposes [1, 0] S256x256
  transposes_S768x256_S256x768_1_0 : S768x256.Transposes [1, 0] S256x768
  bcast_S768_S1x768_1 : S768.BroadcastsInDim S1x768 (![1] : Fin 1 → Fin S1x768.rank)
  bcast_S1x768_S65536x768_0_1 : S1x768.BroadcastsInDim S65536x768 (![0, 1] : Fin 2 → Fin S65536x768.rank)
  slices_S65536x768_S65536x256_0_0 : S65536x768.Slices ![0, 0] S65536x256
  slices_S65536x768_S65536x256_0_256 : S65536x768.Slices ![0, 256] S65536x256
  slices_S65536x768_S65536x256_0_512 : S65536x768.Slices ![0, 512] S65536x256
  shapeCasts_S65536x256_S2048x32x256 : S65536x256.ShapeCasts S2048x32x256
  reducesTo_S2048x32x256_S2048x256_d1 : S2048x32x256.ReducesTo [1] S2048x256
  h_S_ : 0 < S_.numel
  bcast_S2048x256_S2048x1x256_0_2 : S2048x256.BroadcastsInDim S2048x1x256 (![0, 2] : Fin 2 → Fin S2048x1x256.rank)
  bcast_S2048x1x256_S2048x32x256_0_1_2 : S2048x1x256.BroadcastsInDim S2048x32x256 (![0, 1, 2] : Fin 3 → Fin S2048x32x256.rank)
  bcast_S_S2048x32x256 : S_.BroadcastsInDim S2048x32x256 (![] : Fin 0 → Fin S2048x32x256.rank)
  shapeCasts_S2048x32x256_S65536x256 : S2048x32x256.ShapeCasts S65536x256
  transposes_S1x256_S256x1_1_0 : S1x256.Transposes [1, 0] S256x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  shapeCasts_S65536x1_S2048x32x1 : S65536x1.ShapeCasts S2048x32x1
  dot_S65536x128_S128x256_S65536x256_1_0_0_1_n_n_wf : DotDims.WF S65536x128 S128x256 S65536x256 [1] [0] [0] [1] [] []
  dot_S65536x256_S256x256_S65536x256_1_0_0_1_n_n_wf : DotDims.WF S65536x256 S256x256 S65536x256 [1] [0] [0] [1] [] []
  dot_S65536x256_S256x768_S65536x768_1_0_0_1_n_n_wf : DotDims.WF S65536x256 S256x768 S65536x768 [1] [0] [0] [1] [] []
  dot_S65536x256_S256x1_S65536x1_1_0_0_1_n_n_wf : DotDims.WF S65536x256 S256x1 S65536x1 [1] [0] [0] [1] [] []

variable [Facts₀]

def dot_S65536x128_S128x256_S65536x256_1_0_0_1_n_n : DotDims S65536x128 S128x256 S65536x256 where
  lhsContracting := [1]
  rhsContracting := [0]
  lhsNonContracting := [0]
  rhsNonContracting := [1]
  lhsBatch := []
  rhsBatch := []
  wf := dot_S65536x128_S128x256_S65536x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x768_S65536x768_1_0_0_1_n_n : DotDims S65536x256 S256x768 S65536x768 where
  lhsContracting := [1]
  rhsContracting := [0]
  lhsNonContracting := [0]
  rhsNonContracting := [1]
  lhsBatch := []
  rhsBatch := []
  wf := dot_S65536x256_S256x768_S65536x768_1_0_0_1_n_n_wf
def dot_S65536x256_S256x1_S65536x1_1_0_0_1_n_n : DotDims S65536x256 S256x1 S65536x1 where
  lhsContracting := [1]
  rhsContracting := [0]
  lhsNonContracting := [0]
  rhsNonContracting := [1]
  lhsBatch := []
  rhsBatch := []
  wf := dot_S65536x256_S256x1_S65536x1_1_0_0_1_n_n_wf

class Facts : Prop extends Facts₀ where

variable [Facts]
-- ==== Proof.Comm.lean ====
/-
  The mathematics both programs compute, one agent at a time, on the extended reals.

  An agent's observation row `x` (128 entries) is encoded (`x·W1 + b1`, clamped below at `0`), projected
  (`·W2 + b2`) and passed through a GRU cell whose input is the zero vector, so that the cell's input gates are
  the bias `bi` alone.  The agents of one batch entry then exchange the mean of the OTHER agents' states, written
  `(Σ_a' h_a' − h_a) · (1/32)`, a second GRU cell takes that mean as its input, and a last affine map reads one
  number off the state.  Weight matrices are used in their transposed (input × output) layout, which is how both
  programs multiply by them.
-/
import Idealize.ShloMosaic.PureOps.Ideal
import Idealize.ShloMosaic.Lib.ValueIdx

noncomputable section

namespace Cert.Comm

open Idealize.ShloMosaic Idealize.ShloMosaic.ValueIdx

/-- A row of `n` extended reals. -/
abbrev Row (n : Nat) := Fin n → EReal

/-- Entry `j` of the `s`-th third (reset, update, candidate) of a gate row of width `768 = 3 · 256`. -/
def gate (s : Fin 3) (j : Fin 256) : Fin 768 := ⟨256 * s.val + j.val, by have := s.isLt; have := j.isLt; omega⟩

/-- The affine map `x ↦ x·W + b`, `W` in input × output layout. -/
def lin {i o : Nat} (W : Fin i → Fin o → EReal) (b : Row o) (x : Row i) : Row o :=
  fun j => (∑ k : Fin i, x k * W k j) + b j

/-- A GRU cell from its input-side and hidden-side gate pre-activations `gi`, `gh` and the previous state `h`:
    `r = σ(gi_r + gh_r)`, `z = σ(gi_z + gh_z)`, `n = tanh(gi_n + r · gh_n)`, new state `(1 − z) · n + z · h`. -/
def gru (gi gh : Row 768) (h : Row 256) : Row 256 := fun j =>
  (1 - Ideal.logistic (gi (gate 1 j) + gh (gate 1 j)))
      * Ideal.tanh (gi (gate 2 j) + Ideal.logistic (gi (gate 0 j) + gh (gate 0 j)) * gh (gate 2 j))
    + Ideal.logistic (gi (gate 1 j) + gh (gate 1 j)) * h j

/-- The weights, matrices transposed to input × output. -/
structure Weights where
  W1 : Fin 128 → Fin 256 → EReal
  b1 : Row 256
  W2 : Fin 256 → Fin 256 → EReal
  b2 : Row 256
  Wi : Fin 256 → Fin 768 → EReal
  bi : Row 768
  Wh : Fin 256 → Fin 768 → EReal
  bh : Row 768
  Wd : Fin 256 → EReal
  bd : EReal

/-- Encoder, clamp at zero, projection. -/
def hidden (P : Weights) (x : Row 128) : Row 256 :=
  lin P.W2 P.b2 (fun k => max (lin P.W1 P.b1 x k) 0)

/-- The first GRU step: its input is the zero vector, so the input-side gates are the bias. -/
def first (P : Weights) (h : Row 256) : Row 256 := gru P.bi (lin P.Wh P.bh h) h

/-- An agent's state after the first step, from its observation row. -/
def state1 (P : Weights) (x : Row 128) : Row 256 := first P (hidden P x)

/-- What agent `a` receives: the sum of all 32 agents' states less its own, times `1/32`. -/
def mean (H : Fin 32 → Row 256) (a : Fin 32) : Row 256 :=
  fun j => ((∑ a' : Fin 32, H a' j) - H a j) * ((1 / 32 : ℝ) : EReal)

/-- The second GRU step, on the received mean `c` and the own state `h`. -/
def second (P : Weights) (c h : Row 256) : Row 256 := gru (lin P.Wi P.bi c) (lin P.Wh P.bh h) h

/-- The decoder: one number per agent. -/
def decode (P : Weights) (h : Row 256) : EReal := (∑ k : Fin 256, h k * P.Wd k) + P.bd

/-- The result for agent `a` of a batch entry whose 32 observation rows are `X`. -/
def agent (P : Weights) (X : Fin 32 → Row 128) (a : Fin 32) : EReal :=
  decode P (second P (mean (fun a' => state1 P (X a')) a) (state1 P (X a)))

/-- The agent number of row `p` of a block of 1024 rows (32 batch entries of 32 agents each). -/
def agentOf (p : Fin 1024) : Fin 32 := ⟨p.val % 32, Nat.mod_lt _ (by decide)⟩

/-- The row, in the same block, of agent `a` of row `p`'s batch entry. -/
def mate (p : Fin 1024) (a : Fin 32) : Fin 1024 :=
  ⟨32 * (p.val / 32) + a.val, by have := p.isLt; have := a.isLt; omega⟩

/-- Row `32·b + a` of an array flattened to 65536 rows: agent `a` of batch entry `b`. -/
def flat (b : Fin 2048) (a : Fin 32) : Fin 65536 :=
  ⟨32 * b.val + a.val, by have := b.isLt; have := a.isLt; omega⟩

/-- The weights read off the argument arrays (PyTorch layout: output × input, biases flat). -/
def weightsOf (encW : (⟨2, ![256, 128]⟩ : Shape).Idx → EReal) (encb : (⟨1, ![256]⟩ : Shape).Idx → EReal)
    (fobsW : (⟨2, ![256, 256]⟩ : Shape).Idx → EReal) (fobsb : (⟨1, ![256]⟩ : Shape).Idx → EReal)
    (Wih : (⟨2, ![768, 256]⟩ : Shape).Idx → EReal) (bih : (⟨1, ![768]⟩ : Shape).Idx → EReal)
    (Whh : (⟨2, ![768, 256]⟩ : Shape).Idx → EReal) (bhh : (⟨1, ![768]⟩ : Shape).Idx → EReal)
    (decW : (⟨2, ![1, 256]⟩ : Shape).Idx → EReal) (decb : (⟨1, ![1]⟩ : Shape).Idx → EReal) : Weights where
  W1 := fun d k => encW (ix2 k d)
  b1 := fun k => encb (ix1 k)
  W2 := fun k j => fobsW (ix2 j k)
  b2 := fun j => fobsb (ix1 j)
  Wi := fun k g => Wih (ix2 g k)
  bi := fun g => bih (ix1 g)
  Wh := fun k g => Whh (ix2 g k)
  bh := fun g => bhh (ix1 g)
  Wd := fun k => decW (ix2 0 k)
  bd := decb (ix1 0)

/-- The whole result array, [2048, 32, 1], as one function of the argument arrays. -/
def result (obs : (⟨3, ![2048, 32, 128]⟩ : Shape).Idx → EReal)
    (encW : (⟨2, ![256, 128]⟩ : Shape).Idx → EReal) (encb : (⟨1, ![256]⟩ : Shape).Idx → EReal)
    (fobsW : (⟨2, ![256, 256]⟩ : Shape).Idx → EReal) (fobsb : (⟨1, ![256]⟩ : Shape).Idx → EReal)
    (Wih : (⟨2, ![768, 256]⟩ : Shape).Idx → EReal) (bih : (⟨1, ![768]⟩ : Shape).Idx → EReal)
    (Whh : (⟨2, ![768, 256]⟩ : Shape).Idx → EReal) (bhh : (⟨1, ![768]⟩ : Shape).Idx → EReal)
    (decW : (⟨2, ![1, 256]⟩ : Shape).Idx → EReal) (decb : (⟨1, ![1]⟩ : Shape).Idx → EReal) :
    (⟨3, ![2048, 32, 1]⟩ : Shape).Idx → EReal :=
  fun i => agent (weightsOf encW encb fobsW fobsb Wih bih Whh bhh decW decb)
    (fun a d => obs (ix3 (i 0) a d)) (i 1)

end Cert.Comm

end
-- ==== Proof.Constants.lean ====
/-
  The float words the two programs spell, as the extended reals they denote, and the two scalar identities that
  join the programs' different spellings: the host's expanded sigmoid `1 / (1 + e^(−x))` is the logistic function,
  and dividing by `32` is multiplying by `1/32` (an exact dyadic, so the kernel's folded reciprocal is exact).
-/
import Idealize.ShloMosaic.PureOps.Ideal
import Idealize.ShloMosaic.PureOps.Ideal.Laws

noncomputable section

namespace Cert.Comm

open Idealize.ShloMosaic

/-- The word of `1.0` denotes `1`. -/
theorem ofBits_one : Ideal.ofBits .f32 0x3F800000#32 = 1 := by
  simp [Ideal.ofBits, Ideal.ieee, -EReal.coe_mul]; norm_num

/-- The word of `32.0` denotes the real `32`. -/
theorem ofBits_32 : Ideal.ofBits .f32 0x42000000#32 = ((32 : ℝ) : EReal) := by
  simp [Ideal.ofBits, Ideal.ieee, -EReal.coe_mul]; norm_num

/-- The word of `0.03125` denotes the real `1/32`, exactly. -/
theorem ofBits_inv32 : Ideal.ofBits .f32 0x3D000000#32 = ((1 / 32 : ℝ) : EReal) := by
  simp [Ideal.ofBits, Ideal.ieee, -EReal.coe_mul]; norm_num

/-- The quotient by the word of `32.0` is the product with `1/32`, on every extended real. -/
theorem div_32 (x : EReal) : Ideal.div x (Ideal.ofBits .f32 0x42000000#32) = x * ((1 / 32 : ℝ) : EReal) := by
  rw [ofBits_32]; exact Ideal.div_coe (by norm_num) x

/-- The expanded sigmoid, with the word of `1.0` for its ones, is the logistic function. -/
theorem sigmoid_expanded (x : EReal) :
    Ideal.div (Ideal.ofBits .f32 0x3F800000#32) (Ideal.ofBits .f32 0x3F800000#32 + Ideal.exp (-x)) = Ideal.logistic x := by
  rw [ofBits_one]; rfl

end Cert.Comm

end
-- ==== Proof.KernelState.lean ====
/-
  Row `p` of the body's state after the first GRU step, entry by entry.  The body's arrays are read at an entry
  `(p, j)`: a matrix product onto the zero accumulator is the sum `∑ k, a (p, k) * b (k, j)`, a one-row bias is added
  to every row, the clamp is `max · 0`, and the width-256 slices at column offsets `0`, `256`, `512` of a 768-wide
  row are its reset, update and candidate thirds.  Put together, entry `(p, j)` of the cell's output is the GRU
  formula applied to the encoded and projected observation row `p`, with the input-side gates equal to the bias.
-/
import proofs.«135045_j23081154249051_1_alg».proof.Proof.Gen.KernelIdeal.Skeleton
import proofs.«135045_j23081154249051_1_alg».proof.Proof.Comm
import proofs.«135045_j23081154249051_1_alg».proof.Proof.Constants
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Rows

open Cert.KernelIdeal Cert.KernelIdeal.Gen Idealize.ShloMosaic Idealize.ShloMosaic.ValueIdx

/-! The matrix product of a [1024, 128] by a [128, 256] operand: the four coordinate facts of its operand indices, then the product read at an entry. -/
theorem lhsA_0 (i : S1024x256.Idx) (q : dot_S1024x128_S128x256_S1024x256_1_0_0_1_n_n.contr.Idx) :
    (dot_S1024x128_S128x256_S1024x256_1_0_0_1_n_n.lhsIdx i q 0).val = (i 0).val := by
  unfold DotDims.lhsIdx
  rw [dif_neg (show ¬(0 : Fin S1024x128.rank) ∈ dot_S1024x128_S128x256_S1024x256_1_0_0_1_n_n.lhsBatch by decide), dif_pos (show (0 : Fin S1024x128.rank) ∈ dot_S1024x128_S128x256_S1024x256_1_0_0_1_n_n.lhsNonContracting by decide)]
  rfl
theorem lhsA_1 (i : S1024x256.Idx) (q : dot_S1024x128_S128x256_S1024x256_1_0_0_1_n_n.contr.Idx) :
    (dot_S1024x128_S128x256_S1024x256_1_0_0_1_n_n.lhsIdx i q 1).val = (q ⟨0, by decide⟩).val :=
  dot_S1024x128_S128x256_S1024x256_1_0_0_1_n_n.lhsIdx_val_of_single rfl i q
theorem rhsA_0 (i : S1024x256.Idx) (q : dot_S1024x128_S128x256_S1024x256_1_0_0_1_n_n.contr.Idx) :
    (dot_S1024x128_S128x256_S1024x256_1_0_0_1_n_n.rhsIdx i q 0).val = (q ⟨0, by decide⟩).val :=
  dot_S1024x128_S128x256_S1024x256_1_0_0_1_n_n.rhsIdx_val_of_single rfl i q
theorem rhsA_1 (i : S1024x256.Idx) (q : dot_S1024x128_S128x256_S1024x256_1_0_0_1_n_n.contr.Idx) :
    (dot_S1024x128_S128x256_S1024x256_1_0_0_1_n_n.rhsIdx i q 1).val = (i 1).val := by
  unfold DotDims.rhsIdx
  rw [dif_neg (show ¬(1 : Fin S128x256.rank) ∈ dot_S1024x128_S128x256_S1024x256_1_0_0_1_n_n.rhsBatch by decide), dif_pos (show (1 : Fin S128x256.rank) ∈ dot_S1024x128_S128x256_S1024x256_1_0_0_1_n_n.rhsNonContracting by decide)]
  rfl
/-- Entry `(p, j)` of the product onto the zero accumulator is `∑ k, a (p, k) * b (k, j)`. -/
theorem mmA_apply (a : FVec Ideal S1024x128 .bf16) (b : FVec Ideal S128x256 .bf16) (p : Fin 1024) (j : Fin 256) :
    matmul dot_S1024x128_S128x256_S1024x256_1_0_0_1_n_n none a b (constant S1024x256 .f32 0x00000000#32) (ix2 p j)
      = ∑ k : Fin 128, a (ix2 p k) * b (ix2 k j) := by
  simp only [matmul]
  rw [Ideal.matmul_constant_zero_apply, ← Equiv.sum_comp (ValueIdx.contrEquiv1 dot_S1024x128_S128x256_S1024x256_1_0_0_1_n_n 128 rfl rfl).symm]
  refine Finset.sum_congr rfl fun k _ => ?_
  have hk := ValueIdx.contrEquiv1_symm_val dot_S1024x128_S128x256_S1024x256_1_0_0_1_n_n 128 rfl rfl k
  have el : dot_S1024x128_S128x256_S1024x256_1_0_0_1_n_n.lhsIdx (ix2 p j) ((ValueIdx.contrEquiv1 dot_S1024x128_S128x256_S1024x256_1_0_0_1_n_n 128 rfl rfl).symm k) = ix2 p k := funext fun ax => Fin.ext (by
    match ax with
    | ⟨0, _⟩ => exact lhsA_0 _ _
    | ⟨1, _⟩ => exact (lhsA_1 _ _).trans hk)
  have er : dot_S1024x128_S128x256_S1024x256_1_0_0_1_n_n.rhsIdx (ix2 p j) ((ValueIdx.contrEquiv1 dot_S1024x128_S128x256_S1024x256_1_0_0_1_n_n 128 rfl rfl).symm k) = ix2 k j := funext fun ax => Fin.ext (by
    match ax with
    | ⟨0, _⟩ => exact (rhsA_0 _ _).trans hk
    | ⟨1, _⟩ => exact rhsA_1 _ _)
  rw [el, er]

/-! The matrix product of a [1024, 256] by a [256, 256] operand: the four coordinate facts of its operand indices, then the product read at an entry. -/
theorem lhsB_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhsB_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhsB_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhsB_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl
/-- Entry `(p, j)` of the product onto the zero accumulator is `∑ k, a (p, k) * b (k, j)`. -/
theorem mmB_apply (a : FVec Ideal S1024x256 .bf16) (b : FVec Ideal S256x256 .bf16) (p : Fin 1024) (j : Fin 256) :
    matmul dot_S1024x256_S256x256_S1024x256_1_0_0_1_n_n none a b (constant S1024x256 .f32 0x00000000#32) (ix2 p j)
      = ∑ k : Fin 256, a (ix2 p k) * b (ix2 k j) := by
  simp only [matmul]
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 p j) ((ValueIdx.contrEquiv1 dot_S1024x256_S256x256_S1024x256_1_0_0_1_n_n 256 rfl rfl).symm k) = ix2 p k := funext fun ax => Fin.ext (by
    match ax with
    | ⟨0, _⟩ => exact lhsB_0 _ _
    | ⟨1, _⟩ => exact (lhsB_1 _ _).trans hk)
  have er : dot_S1024x256_S256x256_S1024x256_1_0_0_1_n_n.rhsIdx (ix2 p j) ((ValueIdx.contrEquiv1 dot_S1024x256_S256x256_S1024x256_1_0_0_1_n_n 256 rfl rfl).symm k) = ix2 k j := funext fun ax => Fin.ext (by
    match ax with
    | ⟨0, _⟩ => exact (rhsB_0 _ _).trans hk
    | ⟨1, _⟩ => exact rhsB_1 _ _)
  rw [el, er]

/-! The matrix product of a [1024, 256] by a [256, 768] operand: the four coordinate facts of its operand indices, then the product read at an entry. -/
theorem lhsC_0 (i : S1024x768.Idx) (q : dot_S1024x256_S256x768_S1024x768_1_0_0_1_n_n.contr.Idx) :
    (dot_S1024x256_S256x768_S1024x768_1_0_0_1_n_n.lhsIdx i q 0).val = (i 0).val := by
  unfold DotDims.lhsIdx
  rw [dif_neg (show ¬(0 : Fin S1024x256.rank) ∈ dot_S1024x256_S256x768_S1024x768_1_0_0_1_n_n.lhsBatch by decide), dif_pos (show (0 : Fin S1024x256.rank) ∈ dot_S1024x256_S256x768_S1024x768_1_0_0_1_n_n.lhsNonContracting by decide)]
  rfl
theorem lhsC_1 (i : S1024x768.Idx) (q : dot_S1024x256_S256x768_S1024x768_1_0_0_1_n_n.contr.Idx) :
    (dot_S1024x256_S256x768_S1024x768_1_0_0_1_n_n.lhsIdx i q 1).val = (q ⟨0, by decide⟩).val :=
  dot_S1024x256_S256x768_S1024x768_1_0_0_1_n_n.lhsIdx_val_of_single rfl i q
theorem rhsC_0 (i : S1024x768.Idx) (q : dot_S1024x256_S256x768_S1024x768_1_0_0_1_n_n.contr.Idx) :
    (dot_S1024x256_S256x768_S1024x768_1_0_0_1_n_n.rhsIdx i q 0).val = (q ⟨0, by decide⟩).val :=
  dot_S1024x256_S256x768_S1024x768_1_0_0_1_n_n.rhsIdx_val_of_single rfl i q
theorem rhsC_1 (i : S1024x768.Idx) (q : dot_S1024x256_S256x768_S1024x768_1_0_0_1_n_n.contr.Idx) :
    (dot_S1024x256_S256x768_S1024x768_1_0_0_1_n_n.rhsIdx i q 1).val = (i 1).val := by
  unfold DotDims.rhsIdx
  rw [dif_neg (show ¬(1 : Fin S256x768.rank) ∈ dot_S1024x256_S256x768_S1024x768_1_0_0_1_n_n.rhsBatch by decide), dif_pos (show (1 : Fin S256x768.rank) ∈ dot_S1024x256_S256x768_S1024x768_1_0_0_1_n_n.rhsNonContracting by decide)]
  rfl
/-- Entry `(p, j)` of the product onto the zero accumulator is `∑ k, a (p, k) * b (k, j)`. -/
theorem mmC_apply (a : FVec Ideal S1024x256 .bf16) (b : FVec Ideal S256x768 .bf16) (p : Fin 1024) (j : Fin 768) :
    matmul dot_S1024x256_S256x768_S1024x768_1_0_0_1_n_n none a b (constant S1024x768 .f32 0x00000000#32) (ix2 p j)
      = ∑ k : Fin 256, a (ix2 p k) * b (ix2 k j) := by
  simp only [matmul]
  rw [Ideal.matmul_constant_zero_apply, ← Equiv.sum_comp (ValueIdx.contrEquiv1 dot_S1024x256_S256x768_S1024x768_1_0_0_1_n_n 256 rfl rfl).symm]
  refine Finset.sum_congr rfl fun k _ => ?_
  have hk := ValueIdx.contrEquiv1_symm_val dot_S1024x256_S256x768_S1024x768_1_0_0_1_n_n 256 rfl rfl k
  have el : dot_S1024x256_S256x768_S1024x768_1_0_0_1_n_n.lhsIdx (ix2 p j) ((ValueIdx.contrEquiv1 dot_S1024x256_S256x768_S1024x768_1_0_0_1_n_n 256 rfl rfl).symm k) = ix2 p k := funext fun ax => Fin.ext (by
    match ax with
    | ⟨0, _⟩ => exact lhsC_0 _ _
    | ⟨1, _⟩ => exact (lhsC_1 _ _).trans hk)
  have er : dot_S1024x256_S256x768_S1024x768_1_0_0_1_n_n.rhsIdx (ix2 p j) ((ValueIdx.contrEquiv1 dot_S1024x256_S256x768_S1024x768_1_0_0_1_n_n 256 rfl rfl).symm k) = ix2 k j := funext fun ax => Fin.ext (by
    match ax with
    | ⟨0, _⟩ => exact (rhsC_0 _ _).trans hk
    | ⟨1, _⟩ => exact rhsC_1 _ _)
  rw [el, er]

/-- The word of the scalar constant `0.0` is the extended real `0`. -/
theorem scalar_zero : Scalar.ofBits (F := Ideal) .f32 0x00000000#32 = (0 : EReal) := Ideal.ofBits_zero_f32
/-- The word of the scalar constant `1.0` is the extended real `1`. -/
theorem scalar_one : Scalar.ofBits (F := Ideal) .f32 0x3F800000#32 = (1 : EReal) := Comm.ofBits_one

/-- Entry `(p, j)` of the projected encoding: the observation row `p` times `W1` plus `b1`, clamped below at `0`,
    times `W2` plus `b2`. -/
theorem pay2_apply (x0 : Vec Ideal S1024x128 .f32) (x1 : Vec Ideal S128x256 .f32) (x2 : Vec Ideal S1x256 .f32)
    (x3 : Vec Ideal S256x256 .f32) (x4 : Vec Ideal S1x256 .f32) (p : Fin 1024) (j : Fin 256) :
    k0_pay2 (F := Ideal) x0 x1 x2 x3 x4 (ix2 p j)
      = (∑ k : Fin 256, max ((∑ d : Fin 128, x0 (ix2 p d) * x1 (ix2 d k)) + x2 (ix2 0 k)) 0 * x3 (ix2 k j)) + x4 (ix2 0 j) := by
  unfold k0_pay2
  simp only [shapeCast_self, addf_apply, mmB_apply, truncf_apply, maximumf_apply, mmA_apply, broadcastTo_1b_ab_apply, broadcast_apply, scalar_zero]

/-- Entry `(p, g)` of the hidden-side gate pre-activations: row `p` of the projected encoding times `Wh` plus `bh`. -/
theorem pay7_apply (x0 : Vec Ideal S1024x128 .f32) (x1 : Vec Ideal S128x256 .f32) (x2 : Vec Ideal S1x256 .f32)
    (x3 : Vec Ideal S256x256 .f32) (x4 : Vec Ideal S1x256 .f32) (x7 : Vec Ideal S256x768 .f32) (x8 : Vec Ideal S1x768 .f32)
    (p : Fin 1024) (g : Fin 768) :
    k0_pay7 (F := Ideal) x0 x1 x2 x3 x4 x7 x8 (ix2 p g)
      = (∑ k : Fin 256, k0_pay2 (F := Ideal) x0 x1 x2 x3 x4 (ix2 p k) * x7 (ix2 k g)) + x8 (ix2 0 g) := by
  unfold k0_pay7 k0_pay3 k0_pay4
  simp only [shapeCast_self, addf_apply, mmC_apply, truncf_apply, broadcastTo_1b_ab_apply]

/-- The input-side bias row is passed on unchanged. -/
theorem pay5_eq (x6 : Vec Ideal S1x768 .f32) : k0_pay5 (F := Ideal) x6 = x6 := by
  unfold k0_pay5
  exact shapeCast_self _ _

/-! A width-256 slice at column offset `0`, `256`, `512` of a 768-wide row reads the reset, update, candidate third. -/
theorem slice_gate0 {m : Nat} (X : (⟨2, ![m, 768]⟩ : Shape).Idx → EReal)
    (h : (⟨2, ![m, 768]⟩ : Shape).Slices ![0, 0] ⟨2, ![m, 256]⟩) (a : Fin m) (j : Fin 256) :
    extractStridedSlice ⟨2, ![m, 256]⟩ ![0, 0] X h (ix2 a j) = X (ix2 a (Comm.gate 0 j)) :=
  slice2_axis1_apply 0 X h a j _ (by show 256 * 0 + j.val = 0 + j.val; omega)
theorem slice_gate1 {m : Nat} (X : (⟨2, ![m, 768]⟩ : Shape).Idx → EReal)
    (h : (⟨2, ![m, 768]⟩ : Shape).Slices ![0, 256] ⟨2, ![m, 256]⟩) (a : Fin m) (j : Fin 256) :
    extractStridedSlice ⟨2, ![m, 256]⟩ ![0, 256] X h (ix2 a j) = X (ix2 a (Comm.gate 1 j)) :=
  slice2_axis1_apply 256 X h a j _ (by show 256 * 1 + j.val = 256 + j.val; omega)
theorem slice_gate2 {m : Nat} (X : (⟨2, ![m, 768]⟩ : Shape).Idx → EReal)
    (h : (⟨2, ![m, 768]⟩ : Shape).Slices ![0, 512] ⟨2, ![m, 256]⟩) (a : Fin m) (j : Fin 256) :
    extractStridedSlice ⟨2, ![m, 256]⟩ ![0, 512] X h (ix2 a j) = X (ix2 a (Comm.gate 2 j)) :=
  slice2_axis1_apply 512 X h a j _ (by show 256 * 2 + j.val = 512 + j.val; omega)

/-- The reset third of the input-side bias. -/
theorem pay8_apply (x6 : Vec Ideal S1x768 .f32) (j : Fin 256) :
    k0_pay8 (F := Ideal) x6 (ix2 0 j) = x6 (ix2 0 (Comm.gate 0 j)) := by
  unfold k0_pay8
  rw [pay5_eq]
  exact slice_gate0 x6 _ 0 j
/-- The update third of the input-side bias. -/
theorem pay9_apply (x6 : Vec Ideal S1x768 .f32) (j : Fin 256) :
    k0_pay9 (F := Ideal) x6 (ix2 0 j) = x6 (ix2 0 (Comm.gate 1 j)) := by
  unfold k0_pay9
  rw [pay5_eq]
  exact slice_gate1 x6 _ 0 j

/-- The sigmoid and the hyperbolic tangent of an array act entry by entry. -/
theorem logistic_at {s : Shape} {φ : FTy} (a : FVec Ideal s φ) (i : s.Idx) : logistic a i = Ideal.logistic (a i) := rfl
theorem tanh_at {s : Shape} {φ : FTy} (a : FVec Ideal s φ) (i : s.Idx) : tanh a i = Ideal.tanh (a i) := rfl

/-- Entry `(p, j)` of the GRU cell's output, from the previous state `v21`, the input-side bias row `v27` (its
    reset and update thirds `v35`, `v36`) and the hidden-side pre-activations `v34`. -/
theorem pay10_apply (v21 : FVec Ideal S1024x256 .f32) (v27 : FVec Ideal S1x768 .f32) (v34 : FVec Ideal S1024x768 .f32)
    (v35 v36 : FVec Ideal S1x256 .f32) (p : Fin 1024) (j : Fin 256) :
    k0_pay10 (F := Ideal) v21 v27 v34 v35 v36 (ix2 p j)
      = (1 - Ideal.logistic (v36 (ix2 0 j) + v34 (ix2 p (Comm.gate 1 j))))
          * Ideal.tanh (v27 (ix2 0 (Comm.gate 2 j))
              + Ideal.logistic (v35 (ix2 0 j) + v34 (ix2 p (Comm.gate 0 j))) * v34 (ix2 p (Comm.gate 2 j)))
        + Ideal.logistic (v36 (ix2 0 j) + v34 (ix2 p (Comm.gate 1 j))) * v21 (ix2 p j) := by
  unfold k0_pay10
  simp only [addf_apply, mulf_apply, subf_apply, logistic_at, tanh_at, broadcast_apply, scalar_one,
    broadcastTo_1b_ab_apply, slice_gate0, slice_gate1, slice_gate2]

/-- The weights as a grid point's body loads them: every weight window's block is its whole array, the matrices
    already transposed to input × output, the biases as one-row matrices. -/
def blockWeights (x1 : Vec Ideal S128x256 .f32) (x2 : Vec Ideal S1x256 .f32) (x3 : Vec Ideal S256x256 .f32)
    (x4 : Vec Ideal S1x256 .f32) (x5 : Vec Ideal S256x768 .f32) (x6 : Vec Ideal S1x768 .f32)
    (x7 : Vec Ideal S256x768 .f32) (x8 : Vec Ideal S1x768 .f32) (x9 : Vec Ideal S256x1 .f32)
    (x10 : Vec Ideal S1x1 .f32) : Comm.Weights where
  W1 := fun d k => x1 (ix2 d k)
  b1 := fun k => x2 (ix2 0 k)
  W2 := fun k j => x3 (ix2 k j)
  b2 := fun j => x4 (ix2 0 j)
  Wi := fun k g => x5 (ix2 k g)
  bi := fun g => x6 (ix2 0 g)
  Wh := fun k g => x7 (ix2 k g)
  bh := fun g => x8 (ix2 0 g)
  Wd := fun k => x9 (ix2 k 0)
  bd := x10 (ix2 0 0)

/-- Row `p` of the body's state after the first GRU step is the agent's state of row `p` of the observation block. -/
theorem state1_rows (x0 : Vec Ideal S1024x128 .f32) (x1 : Vec Ideal S128x256 .f32) (x2 : Vec Ideal S1x256 .f32)
    (x3 : Vec Ideal S256x256 .f32) (x4 : Vec Ideal S1x256 .f32) (x5 : Vec Ideal S256x768 .f32)
    (x6 : Vec Ideal S1x768 .f32) (x7 : Vec Ideal S256x768 .f32) (x8 : Vec Ideal S1x768 .f32)
    (x9 : Vec Ideal S256x1 .f32) (x10 : Vec Ideal S1x1 .f32) (p : Fin 1024) (j : Fin 256) :
    k0_pay10 (F := Ideal) (k0_pay2 x0 x1 x2 x3 x4) (k0_pay5 x6) (k0_pay7 x0 x1 x2 x3 x4 x7 x8) (k0_pay8 x6) (k0_pay9 x6) (ix2 p j)
      = Comm.state1 (blockWeights x1 x2 x3 x4 x5 x6 x7 x8 x9 x10) (fun d => x0 (ix2 p d)) j := by
  rw [pay10_apply, pay5_eq, pay8_apply, pay9_apply]
  simp only [pay7_apply, pay2_apply]
  rfl

end Cert.KernelIdeal.Rows

end
-- ==== Proof.KernelOut.lean ====
/-
  The second half of the body, row by row.  Given that row `p` of the state after the first GRU step is `H p`,
  the input-side gate row is the affine map `Wi, bi` of `((Σ_a H (32·⌊p/32⌋ + a)) − H p) · (1/32)` (the block is
  regrouped as 32 batch entries of 32 agents, summed over the agents, and the own row subtracted), the hidden-side
  gate row is the affine map `Wh, bh` of `H p`, the three column thirds of both give the reset, update and
  candidate gates of the GRU cell, and the stored number is the decoder `Σ_k h'_k · Wd_k + bd` of the new state.
-/
import proofs.«135045_j23081154249051_1_alg».proof.Proof.Gen.KernelIdeal.Skeleton
import proofs.«135045_j23081154249051_1_alg».proof.Proof.Comm
import proofs.«135045_j23081154249051_1_alg».proof.Proof.Constants
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Rows

open Cert.KernelIdeal Cert.KernelIdeal.Gen Idealize.ShloMosaic Idealize.ShloMosaic.ValueIdx

/-! ### The two products read at an index -/

private theorem lhs_gates_0 (i : S1024x768.Idx) (q : dot_S1024x256_S256x768_S1024x768_1_0_0_1_n_n.contr.Idx) :
    (dot_S1024x256_S256x768_S1024x768_1_0_0_1_n_n.lhsIdx i q 0).val = (i 0).val := by
  unfold DotDims.lhsIdx
  rw [dif_neg (show ¬(0 : Fin S1024x256.rank) ∈ dot_S1024x256_S256x768_S1024x768_1_0_0_1_n_n.lhsBatch by decide), dif_pos (show (0 : Fin S1024x256.rank) ∈ dot_S1024x256_S256x768_S1024x768_1_0_0_1_n_n.lhsNonContracting by decide)]
  rfl
private theorem lhs_gates_1 (i : S1024x768.Idx) (q : dot_S1024x256_S256x768_S1024x768_1_0_0_1_n_n.contr.Idx) :
    (dot_S1024x256_S256x768_S1024x768_1_0_0_1_n_n.lhsIdx i q 1).val = (q ⟨0, by decide⟩).val :=
  dot_S1024x256_S256x768_S1024x768_1_0_0_1_n_n.lhsIdx_val_of_single rfl i q
private theorem rhs_gates_0 (i : S1024x768.Idx) (q : dot_S1024x256_S256x768_S1024x768_1_0_0_1_n_n.contr.Idx) :
    (dot_S1024x256_S256x768_S1024x768_1_0_0_1_n_n.rhsIdx i q 0).val = (q ⟨0, by decide⟩).val :=
  dot_S1024x256_S256x768_S1024x768_1_0_0_1_n_n.rhsIdx_val_of_single rfl i q
private theorem rhs_gates_1 (i : S1024x768.Idx) (q : dot_S1024x256_S256x768_S1024x768_1_0_0_1_n_n.contr.Idx) :
    (dot_S1024x256_S256x768_S1024x768_1_0_0_1_n_n.rhsIdx i q 1).val = (i 1).val := by
  unfold DotDims.rhsIdx
  rw [dif_neg (show ¬(1 : Fin S256x768.rank) ∈ dot_S1024x256_S256x768_S1024x768_1_0_0_1_n_n.rhsBatch by decide), dif_pos (show (1 : Fin S256x768.rank) ∈ dot_S1024x256_S256x768_S1024x768_1_0_0_1_n_n.rhsNonContracting by decide)]
  rfl

/-- The product of a [1024, 256] block with a [256, 768] matrix into the zero accumulator, at (p, g). -/
private theorem matmul_gates_apply (l : FVec Ideal S1024x256 .bf16) (r : FVec Ideal S256x768 .bf16) (p : Fin 1024) (g : Fin 768) :
    matmul dot_S1024x256_S256x768_S1024x768_1_0_0_1_n_n none l r (constant (F := Ideal) S1024x768 .f32 0x00000000#32) (ix2 p g)
      = ∑ k : Fin 256, l (ix2 p k) * r (ix2 k g) := by
  refine (Ideal.matmul_constant_zero_apply dot_S1024x256_S256x768_S1024x768_1_0_0_1_n_n none l r (ix2 p g)).trans ?_
  rw [← Equiv.sum_comp (ValueIdx.contrEquiv1 dot_S1024x256_S256x768_S1024x768_1_0_0_1_n_n 256 rfl rfl).symm]
  refine Finset.sum_congr rfl fun k _ => ?_
  have hk := ValueIdx.contrEquiv1_symm_val dot_S1024x256_S256x768_S1024x768_1_0_0_1_n_n 256 rfl rfl k
  have el : dot_S1024x256_S256x768_S1024x768_1_0_0_1_n_n.lhsIdx (ix2 p g) ((ValueIdx.contrEquiv1 dot_S1024x256_S256x768_S1024x768_1_0_0_1_n_n 256 rfl rfl).symm k) = ix2 p k := funext fun a => Fin.ext (by
    match a with
    | ⟨0, _⟩ => exact lhs_gates_0 _ _
    | ⟨1, _⟩ => exact (lhs_gates_1 _ _).trans hk)
  have er : dot_S1024x256_S256x768_S1024x768_1_0_0_1_n_n.rhsIdx (ix2 p g) ((ValueIdx.contrEquiv1 dot_S1024x256_S256x768_S1024x768_1_0_0_1_n_n 256 rfl rfl).symm k) = ix2 k g := funext fun a => Fin.ext (by
    match a with
    | ⟨0, _⟩ => exact (rhs_gates_0 _ _).trans hk
    | ⟨1, _⟩ => exact rhs_gates_1 _ _)
  rw [el, er]

private theorem lhs_dec_0 (i : S1024x1.Idx) (q : dot_S1024x256_S256x1_S1024x1_1_0_0_1_n_n.contr.Idx) :
    (dot_S1024x256_S256x1_S1024x1_1_0_0_1_n_n.lhsIdx i q 0).val = (i 0).val := by
  unfold DotDims.lhsIdx
  rw [dif_neg (show ¬(0 : Fin S1024x256.rank) ∈ dot_S1024x256_S256x1_S1024x1_1_0_0_1_n_n.lhsBatch by decide), dif_pos (show (0 : Fin S1024x256.rank) ∈ dot_S1024x256_S256x1_S1024x1_1_0_0_1_n_n.lhsNonContracting by decide)]
  rfl
private theorem lhs_dec_1 (i : S1024x1.Idx) (q : dot_S1024x256_S256x1_S1024x1_1_0_0_1_n_n.contr.Idx) :
    (dot_S1024x256_S256x1_S1024x1_1_0_0_1_n_n.lhsIdx i q 1).val = (q ⟨0, by decide⟩).val :=
  dot_S1024x256_S256x1_S1024x1_1_0_0_1_n_n.lhsIdx_val_of_single rfl i q
private theorem rhs_dec_0 (i : S1024x1.Idx) (q : dot_S1024x256_S256x1_S1024x1_1_0_0_1_n_n.contr.Idx) :
    (dot_S1024x256_S256x1_S1024x1_1_0_0_1_n_n.rhsIdx i q 0).val = (q ⟨0, by decide⟩).val :=
  dot_S1024x256_S256x1_S1024x1_1_0_0_1_n_n.rhsIdx_val_of_single rfl i q
private theorem rhs_dec_1 (i : S1024x1.Idx) (q : dot_S1024x256_S256x1_S1024x1_1_0_0_1_n_n.contr.Idx) :
    (dot_S1024x256_S256x1_S1024x1_1_0_0_1_n_n.rhsIdx i q 1).val = (i 1).val := by
  unfold DotDims.rhsIdx
  rw [dif_neg (show ¬(1 : Fin S256x1.rank) ∈ dot_S1024x256_S256x1_S1024x1_1_0_0_1_n_n.rhsBatch by decide), dif_pos (show (1 : Fin S256x1.rank) ∈ dot_S1024x256_S256x1_S1024x1_1_0_0_1_n_n.rhsNonContracting by decide)]
  rfl

/-- The product of a [1024, 256] block with a [256, 1] column into the zero accumulator, at (p, 0). -/
private theorem matmul_dec_apply (l : FVec Ideal S1024x256 .bf16) (r : FVec Ideal S256x1 .bf16) (p : Fin 1024) (u : Fin 1) :
    matmul dot_S1024x256_S256x1_S1024x1_1_0_0_1_n_n none l r (constant (F := Ideal) S1024x1 .f32 0x00000000#32) (ix2 p u)
      = ∑ k : Fin 256, l (ix2 p k) * r (ix2 k u) := by
  refine (Ideal.matmul_constant_zero_apply dot_S1024x256_S256x1_S1024x1_1_0_0_1_n_n none l r (ix2 p u)).trans ?_
  rw [← Equiv.sum_comp (ValueIdx.contrEquiv1 dot_S1024x256_S256x1_S1024x1_1_0_0_1_n_n 256 rfl rfl).symm]
  refine Finset.sum_congr rfl fun k _ => ?_
  have hk := ValueIdx.contrEquiv1_symm_val dot_S1024x256_S256x1_S1024x1_1_0_0_1_n_n 256 rfl rfl k
  have el : dot_S1024x256_S256x1_S1024x1_1_0_0_1_n_n.lhsIdx (ix2 p u) ((ValueIdx.contrEquiv1 dot_S1024x256_S256x1_S1024x1_1_0_0_1_n_n 256 rfl rfl).symm k) = ix2 p k := funext fun a => Fin.ext (by
    match a with
    | ⟨0, _⟩ => exact lhs_dec_0 _ _
    | ⟨1, _⟩ => exact (lhs_dec_1 _ _).trans hk)
  have er : dot_S1024x256_S256x1_S1024x1_1_0_0_1_n_n.rhsIdx (ix2 p u) ((ValueIdx.contrEquiv1 dot_S1024x256_S256x1_S1024x1_1_0_0_1_n_n 256 rfl rfl).symm k) = ix2 k u := funext fun a => Fin.ext (by
    match a with
    | ⟨0, _⟩ => exact (rhs_dec_0 _ _).trans hk
    | ⟨1, _⟩ => exact rhs_dec_1 _ _)
  rw [el, er]

/-! ### The layout operations and the lane sum read at an index -/

/-- The [1024, 256] block viewed as [32, 32, 256]: entry (b, a, j) is row 32·b + a at column j. -/
private theorem cast_rows_to_groups {α : Type} (x : S1024x256.Idx → α) (h : S1024x256.ShapeCasts S32x32x256)
    (b a : Fin 32) (j : Fin 256) (r : Fin 1024) (hr : r.val = 32 * b.val + a.val) :
    shapeCast S32x32x256 x h (ix3 b a j) = x (ix2 r j) :=
  shapeCast_apply x h _ _ (by
    rw [Shape.rowMajor_val_two, Shape.rowMajor_val_three]
    show r.val * 256 + j.val = (b.val * 32 + a.val) * 256 + j.val
    omega)

/-- The [32, 32, 256] view flattened back: row p at column j is entry (b, a, j) when p = 32·b + a. -/
private theorem cast_groups_to_rows {α : Type} (x : S32x32x256.Idx → α) (h : S32x32x256.ShapeCasts S1024x256)
    (p : Fin 1024) (j : Fin 256) (b a : Fin 32) (hp : p.val = 32 * b.val + a.val) :
    shapeCast S1024x256 x h (ix2 p j) = x (ix3 b a j) :=
  shapeCast_apply x h _ _ (by
    rw [Shape.rowMajor_val_three, Shape.rowMajor_val_two]
    show (b.val * 32 + a.val) * 256 + j.val = p.val * 256 + j.val
    omega)

/-- A unit middle axis added to a [32, 256] array. -/
private theorem cast_unit_axis {α : Type} (x : S32x256.Idx → α) (h : S32x256.ShapeCasts S32x1x256)
    (b : Fin 32) (u : Fin 1) (j : Fin 256) :
    shapeCast S32x1x256 x h (ix3 b u j) = x (ix2 b j) :=
  shapeCast_apply x h _ _ (by
    have hu : u.val = 0 := by omega
    rw [Shape.rowMajor_val_two, Shape.rowMajor_val_three]
    show b.val * 256 + j.val = (b.val * 1 + u.val) * 256 + j.val
    omega)

/-- The unit middle axis repeated 32 times. -/
private theorem bcast_groups {α : Type} (x : S32x1x256.Idx → α) (h : S32x1x256.Broadcasts S32x32x256)
    (b a : Fin 32) (j : Fin 256) :
    broadcastTo S32x32x256 x h (ix3 b a j) = x (ix3 b (0 : Fin 1) j) := by
  refine broadcastTo_apply x h (ix3 b a j) (ix3 b (0 : Fin 1) j) fun ax => ?_
  match ax with
  | ⟨0, _⟩ => show b.val = if (32 : Nat) = 1 then 0 else b.val; rw [if_neg (by decide)]
  | ⟨1, _⟩ => rfl
  | ⟨2, _⟩ => show j.val = if (256 : Nat) = 1 then 0 else j.val; rw [if_neg (by decide)]

/-- The sum over the middle axis of a [32, 32, 256] array. -/
private theorem sum_groups (x : FVec Ideal S32x32x256 .f32) (h : S32x32x256.Reduces [1] S32x256)
    (hφ : FKind.Formats .f32) (hacc : (0x00000000#32 : BitVec 32) = 0x00000000#32) (b : Fin 32) (j : Fin 256) :
    multiReduction (F := Ideal) .add [1] S32x256 x 0x00000000#32 h hφ hacc (ix2 b j) = ∑ a : Fin 32, x (ix3 b a j) := by
  refine (Ideal.multiReduction_add_single x 0x00000000#32 h hφ hacc (ix2 b j)).trans ?_
  refine Finset.sum_congr rfl fun a _ => congrArg x ?_
  funext ax
  refine Fin.ext ?_
  match ax with
  | ⟨0, _⟩ => rfl
  | ⟨1, _⟩ => rfl
  | ⟨2, _⟩ => rfl

/-- The three column blocks of a [1024, 768] array are the three gate thirds. -/
private theorem slice_gate0 {α : Type} (X : S1024x768.Idx → α) (h : S1024x768.Slices ![0, 0] S1024x256) (p : Fin 1024) (j : Fin 256) :
    extractStridedSlice S1024x256 ![0, 0] X h (ix2 p j) = X (ix2 p (Comm.gate 0 j)) :=
  slice2_axis1_apply 0 X h p j (Comm.gate 0 j) (by
    have : (Comm.gate 0 j).val = 256 * 0 + j.val := rfl
    omega)
private theorem slice_gate1 {α : Type} (X : S1024x768.Idx → α) (h : S1024x768.Slices ![0, 256] S1024x256) (p : Fin 1024) (j : Fin 256) :
    extractStridedSlice S1024x256 ![0, 256] X h (ix2 p j) = X (ix2 p (Comm.gate 1 j)) :=
  slice2_axis1_apply 256 X h p j (Comm.gate 1 j) (by
    have : (Comm.gate 1 j).val = 256 * 1 + j.val := rfl
    omega)
private theorem slice_gate2 {α : Type} (X : S1024x768.Idx → α) (h : S1024x768.Slices ![0, 512] S1024x256) (p : Fin 1024) (j : Fin 256) :
    extractStridedSlice S1024x256 ![0, 512] X h (ix2 p j) = X (ix2 p (Comm.gate 2 j)) :=
  slice2_axis1_apply 512 X h p j (Comm.gate 2 j) (by
    have : (Comm.gate 2 j).val = 256 * 2 + j.val := rfl
    omega)

/-! ### The hidden-side and input-side gate rows -/

/-- The hidden-side gate pre-activations of row p: the affine map Wh, bh of row p's state. -/
private theorem hidden_gates (v21 : FVec Ideal S1024x256 .f32) (v23 : FVec Ideal S256x768 .f32) (v25 : FVec Ideal S1x768 .f32)
    (v27 : FVec Ideal S1x768 .f32) (v34 : FVec Ideal S1024x768 .f32) (v35 v36 : FVec Ideal S1x256 .f32)
    (P : Comm.Weights) (H : Fin 1024 → Comm.Row 256)
    (hH : ∀ p j, k0_pay10 (F := Ideal) v21 v27 v34 v35 v36 (ix2 p j) = H p j)
    (hWh : ∀ k g, v23 (ix2 k g) = P.Wh k g) (hbh : ∀ g, v25 (ix2 0 g) = P.bh g) (p : Fin 1024) (g : Fin 768) :
    k0_pay12 (F := Ideal) v21 v23 v25 v27 v34 v35 v36 (ix2 p g) = Comm.lin P.Wh P.bh (H p) g := by
  unfold k0_pay12
  generalize k0_pay10 (F := Ideal) v21 v27 v34 v35 v36 = X at hH ⊢
  rw [addf_apply, matmul_gates_apply, broadcastTo_1b_ab_apply, hbh]
  unfold Comm.lin
  refine congrArg (· + P.bh g) (Finset.sum_congr rfl fun k _ => ?_)
  rw [truncf_apply, truncf_apply, hH, hWh]

/-- The input-side gate pre-activations of row p: the affine map Wi, bi of the mean that row p's agent receives
    from the other agents of its batch entry. -/
private theorem input_gates (v21 : FVec Ideal S1024x256 .f32) (v27 : FVec Ideal S1x768 .f32) (v29 : FVec Ideal S256x768 .f32)
    (v34 : FVec Ideal S1024x768 .f32) (v35 v36 : FVec Ideal S1x256 .f32)
    (P : Comm.Weights) (H : Fin 1024 → Comm.Row 256)
    (hH : ∀ p j, k0_pay10 (F := Ideal) v21 v27 v34 v35 v36 (ix2 p j) = H p j)
    (hWi : ∀ k g, v29 (ix2 k g) = P.Wi k g) (hbi : ∀ g, v27 (ix2 0 g) = P.bi g) (p : Fin 1024) (g : Fin 768) :
    k0_pay11 (F := Ideal) v21 v27 v29 v34 v35 v36 (ix2 p g)
      = Comm.lin P.Wi P.bi (Comm.mean (fun a => H (Comm.mate p a)) (Comm.agentOf p)) g := by
  unfold k0_pay11
  generalize k0_pay10 (F := Ideal) v21 v27 v34 v35 v36 = X at hH ⊢
  rw [addf_apply, matmul_gates_apply, broadcastTo_1b_ab_apply, hbi]
  unfold Comm.lin
  refine congrArg (· + P.bi g) (Finset.sum_congr rfl fun k _ => ?_)
  rw [truncf_apply, truncf_apply, hWi]
  refine congrArg (· * P.Wi k g) ?_
  have hb : p.val / 32 < 32 := by have := p.isLt; omega
  refine (cast_groups_to_rows _ _ p k ⟨p.val / 32, hb⟩ (Comm.agentOf p)
    (by show p.val = 32 * (p.val / 32) + p.val % 32; omega)).trans ?_
  rw [mulf_apply, subf_apply, broadcast_apply, bcast_groups, cast_unit_axis, sum_groups]
  have hcast : ∀ (hc : S1024x256.ShapeCasts S32x32x256) (a : Fin 32),
      shapeCast S32x32x256 X hc (ix3 ⟨p.val / 32, hb⟩ a k) = H (Comm.mate p a) k := fun hc a =>
    (cast_rows_to_groups X hc ⟨p.val / 32, hb⟩ a k (Comm.mate p a) rfl).trans (hH _ _)
  simp only [hcast]
  show _ * Ideal.ofBits .f32 0x3D000000#32 = _
  rw [Comm.ofBits_inv32]
  rfl

/-! ### The second GRU step and the decoder -/

private theorem logistic_at {s : Shape} (x : FVec Ideal s .f32) (i : s.Idx) : logistic x i = Ideal.logistic (x i) := rfl
private theorem tanh_at {s : Shape} (x : FVec Ideal s .f32) (i : s.Idx) : tanh x i = Ideal.tanh (x i) := rfl

/-- The update gate: the logistic of the sum of the two sides' middle thirds. -/
private theorem update_gate (v21 : FVec Ideal S1024x256 .f32) (v23 : FVec Ideal S256x768 .f32) (v25 : FVec Ideal S1x768 .f32)
    (v27 : FVec Ideal S1x768 .f32) (v29 : FVec Ideal S256x768 .f32) (v34 : FVec Ideal S1024x768 .f32)
    (v35 v36 : FVec Ideal S1x256 .f32) (p : Fin 1024) (j : Fin 256) :
    k0_pay13 (F := Ideal) v21 v23 v25 v27 v29 v34 v35 v36 (ix2 p j)
      = Ideal.logistic (k0_pay11 (F := Ideal) v21 v27 v29 v34 v35 v36 (ix2 p (Comm.gate 1 j))
          + k0_pay12 (F := Ideal) v21 v23 v25 v27 v34 v35 v36 (ix2 p (Comm.gate 1 j))) := by
  unfold k0_pay13
  generalize k0_pay11 (F := Ideal) v21 v27 v29 v34 v35 v36 = A
  generalize k0_pay12 (F := Ideal) v21 v23 v25 v27 v34 v35 v36 = B
  rw [logistic_at, addf_apply, slice_gate1, slice_gate1]

/-- One minus the update gate, times the candidate state. -/
private theorem candidate_part (v21 : FVec Ideal S1024x256 .f32) (v23 : FVec Ideal S256x768 .f32) (v25 : FVec Ideal S1x768 .f32)
    (v27 : FVec Ideal S1x768 .f32) (v29 : FVec Ideal S256x768 .f32) (v34 : FVec Ideal S1024x768 .f32)
    (v35 v36 : FVec Ideal S1x256 .f32) (p : Fin 1024) (j : Fin 256) :
    k0_pay14 (F := Ideal) v21 v23 v25 v27 v29 v34 v35 v36 (ix2 p j)
      = (1 - k0_pay13 (F := Ideal) v21 v23 v25 v27 v29 v34 v35 v36 (ix2 p j))
          * Ideal.tanh (k0_pay11 (F := Ideal) v21 v27 v29 v34 v35 v36 (ix2 p (Comm.gate 2 j))
              + Ideal.logistic (k0_pay11 (F := Ideal) v21 v27 v29 v34 v35 v36 (ix2 p (Comm.gate 0 j))
                  + k0_pay12 (F := Ideal) v21 v23 v25 v27 v34 v35 v36 (ix2 p (Comm.gate 0 j)))
                * k0_pay12 (F := Ideal) v21 v23 v25 v27 v34 v35 v36 (ix2 p (Comm.gate 2 j))) := by
  unfold k0_pay14
  generalize k0_pay11 (F := Ideal) v21 v27 v29 v34 v35 v36 = A
  generalize k0_pay12 (F := Ideal) v21 v23 v25 v27 v34 v35 v36 = B
  generalize k0_pay13 (F := Ideal) v21 v23 v25 v27 v29 v34 v35 v36 = Z
  simp only [mulf_apply, subf_apply, addf_apply, broadcast_apply, tanh_at, logistic_at, slice_gate0, slice_gate2]
  show (Ideal.ofBits .f32 0x3F800000#32 - _) * _ = _
  rw [Comm.ofBits_one]

/-- The update gate times the previous state. -/
private theorem carried_part (v21 : FVec Ideal S1024x256 .f32) (v23 : FVec Ideal S256x768 .f32) (v25 : FVec Ideal S1x768 .f32)
    (v27 : FVec Ideal S1x768 .f32) (v29 : FVec Ideal S256x768 .f32) (v34 : FVec Ideal S1024x768 .f32)
    (v35 v36 : FVec Ideal S1x256 .f32) (p : Fin 1024) (j : Fin 256) :
    k0_pay15 (F := Ideal) v21 v23 v25 v27 v29 v34 v35 v36 (ix2 p j)
      = k0_pay13 (F := Ideal) v21 v23 v25 v27 v29 v34 v35 v36 (ix2 p j)
          * k0_pay10 (F := Ideal) v21 v27 v34 v35 v36 (ix2 p j) := by
  unfold k0_pay15
  rfl

/-- From the rows `H` of the state after the first step to the body's stored value: row `p` of the store is the
    decoder of the second GRU step on the mean received by row `p`'s agent and on row `p`'s own state. -/
theorem out_rows (v21 : FVec Ideal S1024x256 .f32) (v23 : FVec Ideal S256x768 .f32) (v25 : FVec Ideal S1x768 .f32)
    (v27 : FVec Ideal S1x768 .f32) (v29 : FVec Ideal S256x768 .f32) (v34 : FVec Ideal S1024x768 .f32)
    (v35 v36 : FVec Ideal S1x256 .f32) (x9 : Vec Ideal S256x1 .f32) (x10 : Vec Ideal S1x1 .f32)
    (P : Comm.Weights) (H : Fin 1024 → Comm.Row 256)
    (hH : ∀ p j, k0_pay10 (F := Ideal) v21 v27 v34 v35 v36 (ix2 p j) = H p j)
    (hWi : ∀ k g, v29 (ix2 k g) = P.Wi k g) (hbi : ∀ g, v27 (ix2 0 g) = P.bi g)
    (hWh : ∀ k g, v23 (ix2 k g) = P.Wh k g) (hbh : ∀ g, v25 (ix2 0 g) = P.bh g)
    (hWd : ∀ k, x9 (ix2 k 0) = P.Wd k) (hbd : x10 (ix2 0 0) = P.bd) (p : Fin 1024) :
    k0_pay1 (F := Ideal) (k0_pay14 v21 v23 v25 v27 v29 v34 v35 v36) (k0_pay15 v21 v23 v25 v27 v29 v34 v35 v36) x9 x10 (ix2 p 0)
      = Comm.decode P (Comm.second P (Comm.mean (fun a => H (Comm.mate p a)) (Comm.agentOf p)) (H p)) := by
  unfold k0_pay1
  rw [addf_apply, matmul_dec_apply, broadcastTo_1b_ab_apply, shapeCast_self, shapeCast_self, hbd]
  unfold Comm.decode
  refine congrArg (· + P.bd) (Finset.sum_congr rfl fun k _ => ?_)
  rw [truncf_apply, truncf_apply, hWd, addf_apply, candidate_part, carried_part, update_gate,
    input_gates v21 v27 v29 v34 v35 v36 P H hH hWi hbi, input_gates v21 v27 v29 v34 v35 v36 P H hH hWi hbi,
    input_gates v21 v27 v29 v34 v35 v36 P H hH hWi hbi,
    hidden_gates v21 v23 v25 v27 v34 v35 v36 P H hH hWh hbh, hidden_gates v21 v23 v25 v27 v34 v35 v36 P H hH hWh hbh,
    hidden_gates v21 v23 v25 v27 v34 v35 v36 P H hH hWh hbh, hH]
  rfl

end Cert.KernelIdeal.Rows

end
-- ==== Proof.KernelInputs.lean ====
/-
  What a grid point's body loads, in terms of the argument arrays.

  Before the region the host flattens the observations to 65536 rows (row `n` is agent `n % 32` of batch entry
  `n / 32`), transposes each weight matrix to input × output, and gives each bias a leading unit axis.  The
  observation window's block at grid point `t` is rows `1024·t … 1024·t + 1023` of the flattened array; every
  weight window has one block, the whole array, at every point.  So the weights a point sees are the argument
  weights in the layout the specification uses, and row `p` of its observation block is observation row
  `1024·t + p`.
-/
import proofs.«135045_j23081154249051_1_alg».proof.Proof.Gen.KernelIdeal.Frame
import proofs.«135045_j23081154249051_1_alg».proof.Proof.Comm
import proofs.«135045_j23081154249051_1_alg».proof.Proof.KernelState
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.Arr

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The arrays the region finds, read at an index -/

/-- Row `n` of the flattened observations is agent `n % 32` of batch entry `n / 32`. -/
theorem V_obs (c : Dev nD) (n : Fin 65536) (d : Fin 128) :
    (V m c main_v0 : S65536x128.Idx → EReal) (ix2 n d)
      = ((m ((c : Thread nD τ).loc main_arg0)) : S2048x32x128.Idx → EReal)
          (ix3 (⟨n.val / 32, by have := n.isLt; omega⟩ : Fin 2048) (⟨n.val % 32, Nat.mod_lt _ (by decide)⟩ : Fin 32) d) := by
  have e : (V m c main_v0 : S65536x128.Idx → EReal) =
      shapeCast S65536x128 (m ((c : Thread nD τ).loc main_arg0)) shapeCasts_S2048x32x128_S65536x128 := by
    show StableHlo.after hostOps0 (fun b => m (c, b)) (Proc.devRef .tc main_v0) = _
    after_results <;> rfl
  rw [e]
  refine shapeCast_apply (s := S2048x32x128) (t := S65536x128) _ _ _ _ ?_
  rw [Shape.rowMajor_val_three, Shape.rowMajor_val_two]
  show (n.val / 32 * 32 + n.val % 32) * 128 + d.val = n.val * 128 + d.val
  omega

/-- The encoder matrix, transposed. -/
theorem V_encW (c : Dev nD) (d : Fin 128) (k : Fin 256) :
    (V m c main_v1 : S128x256.Idx → EReal) (ix2 d k) = ((m ((c : Thread nD τ).loc main_arg2)) : S256x128.Idx → EReal) (ix2 k d) := by
  have e : (V m c main_v1 : S128x256.Idx → EReal) =
      transpose S128x256 [1, 0] (m ((c : Thread nD τ).loc main_arg2)) transposes_S256x128_S128x256_1_0 := by
    show StableHlo.after hostOps0 (fun b => m (c, b)) (Proc.devRef .tc main_v1) = _
    after_results <;> rfl
  rw [e]; exact transpose_ix2_apply _ _ d k

/-- The projection matrix, transposed. -/
theorem V_fobsW (c : Dev nD) (k j : Fin 256) :
    (V m c main_v2 : S256x256.Idx → EReal) (ix2 k j) = ((m ((c : Thread nD τ).loc main_arg4)) : S256x256.Idx → EReal) (ix2 j k) := by
  have e : (V m c main_v2 : S256x256.Idx → EReal) =
      transpose S256x256 [1, 0] (m ((c : Thread nD τ).loc main_arg4)) transposes_S256x256_S256x256_1_0 := by
    show StableHlo.after hostOps0 (fun b => m (c, b)) (Proc.devRef .tc main_v2) = _
    after_results <;> rfl
  rw [e]; exact transpose_ix2_apply _ _ k j

/-- The GRU's input-side matrix, transposed. -/
theorem V_Wih (c : Dev nD) (k : Fin 256) (g : Fin 768) :
    (V m c main_v3 : S256x768.Idx → EReal) (ix2 k g) = ((m ((c : Thread nD τ).loc main_arg6)) : S768x256.Idx → EReal) (ix2 g k) := by
  have e : (V m c main_v3 : S256x768.Idx → EReal) =
      transpose S256x768 [1, 0] (m ((c : Thread nD τ).loc main_arg6)) transposes_S768x256_S256x768_1_0 := by
    show StableHlo.after hostOps0 (fun b => m (c, b)) (Proc.devRef .tc main_v3) = _
    after_results <;> rfl
  rw [e]; exact transpose_ix2_apply _ _ k g

/-- The GRU's hidden-side matrix, transposed. -/
theorem V_Whh (c : Dev nD) (k : Fin 256) (g : Fin 768) :
    (V m c main_v4 : S256x768.Idx → EReal) (ix2 k g) = ((m ((c : Thread nD τ).loc main_arg8)) : S768x256.Idx → EReal) (ix2 g k) := by
  have e : (V m c main_v4 : S256x768.Idx → EReal) =
      transpose S256x768 [1, 0] (m ((c : Thread nD τ).loc main_arg8)) transposes_S768x256_S256x768_1_0 := by
    show StableHlo.after hostOps0 (fun b => m (c, b)) (Proc.devRef .tc main_v4) = _
    after_results <;> rfl
  rw [e]; exact transpose_ix2_apply _ _ k g

/-- The decoder's row, as a column. -/
theorem V_decW (c : Dev nD) (k : Fin 256) (u : Fin 1) :
    (V m c main_v5 : S256x1.Idx → EReal) (ix2 k u) = ((m ((c : Thread nD τ).loc main_arg10)) : S1x256.Idx → EReal) (ix2 u k) := by
  have e : (V m c main_v5 : S256x1.Idx → EReal) =
      transpose S256x1 [1, 0] (m ((c : Thread nD τ).loc main_arg10)) transposes_S1x256_S256x1_1_0 := by
    show StableHlo.after hostOps0 (fun b => m (c, b)) (Proc.devRef .tc main_v5) = _
    after_results <;> rfl
  rw [e]; exact transpose_ix2_apply _ _ k u

/-- The encoder's bias, as one row. -/
theorem V_encb (c : Dev nD) (u : Fin 1) (k : Fin 256) :
    (V m c main_v6 : S1x256.Idx → EReal) (ix2 u k) = ((m ((c : Thread nD τ).loc main_arg3)) : S256.Idx → EReal) (ix1 k) := by
  have e : (V m c main_v6 : S1x256.Idx → EReal) = shapeCast S1x256 (m ((c : Thread nD τ).loc main_arg3)) shapeCasts_S256_S1x256 := by
    show StableHlo.after hostOps0 (fun b => m (c, b)) (Proc.devRef .tc main_v6) = _
    after_results <;> rfl
  rw [e]; exact shapeCast_a_1a_apply _ _ u k

/-- The projection's bias, as one row. -/
theorem V_fobsb (c : Dev nD) (u : Fin 1) (k : Fin 256) :
    (V m c main_v7 : S1x256.Idx → EReal) (ix2 u k) = ((m ((c : Thread nD τ).loc main_arg5)) : S256.Idx → EReal) (ix1 k) := by
  have e : (V m c main_v7 : S1x256.Idx → EReal) = shapeCast S1x256 (m ((c : Thread nD τ).loc main_arg5)) shapeCasts_S256_S1x256 := by
    show StableHlo.after hostOps0 (fun b => m (c, b)) (Proc.devRef .tc main_v7) = _
    after_results <;> rfl
  rw [e]; exact shapeCast_a_1a_apply _ _ u k

/-- The GRU's input-side bias, as one row. -/
theorem V_bih (c : Dev nD) (u : Fin 1) (g : Fin 768) :
    (V m c main_v8 : S1x768.Idx → EReal) (ix2 u g) = ((m ((c : Thread nD τ).loc main_arg7)) : S768.Idx → EReal) (ix1 g) := by
  have e : (V m c main_v8 : S1x768.Idx → EReal) = shapeCast S1x768 (m ((c : Thread nD τ).loc main_arg7)) shapeCasts_S768_S1x768 := by
    show StableHlo.after hostOps0 (fun b => m (c, b)) (Proc.devRef .tc main_v8) = _
    after_results <;> rfl
  rw [e]; exact shapeCast_a_1a_apply _ _ u g

/-- The GRU's hidden-side bias, as one row. -/
theorem V_bhh (c : Dev nD) (u : Fin 1) (g : Fin 768) :
    (V m c main_v9 : S1x768.Idx → EReal) (ix2 u g) = ((m ((c : Thread nD τ).loc main_arg9)) : S768.Idx → EReal) (ix1 g) := by
  have e : (V m c main_v9 : S1x768.Idx → EReal) = shapeCast S1x768 (m ((c : Thread nD τ).loc main_arg9)) shapeCasts_S768_S1x768 := by
    show StableHlo.after hostOps0 (fun b => m (c, b)) (Proc.devRef .tc main_v9) = _
    after_results <;> rfl
  rw [e]; exact shapeCast_a_1a_apply _ _ u g

/-- The decoder's bias, as a one-by-one matrix. -/
theorem V_decb (c : Dev nD) (u v : Fin 1) :
    (V m c main_v10 : S1x1.Idx → EReal) (ix2 u v) = ((m ((c : Thread nD τ).loc main_arg11)) : S1.Idx → EReal) (ix1 v) := by
  have e : (V m c main_v10 : S1x1.Idx → EReal) = shapeCast S1x1 (m ((c : Thread nD τ).loc main_arg11)) shapeCasts_S1_S1x1 := by
    show StableHlo.after hostOps0 (fun b => m (c, b)) (Proc.devRef .tc main_v10) = _
    after_results <;> rfl
  rw [e]; exact shapeCast_a_1a_apply _ _ u v

/-! ## The printed index maps, decided over the grid's 64 points -/

theorem index_obs : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem index_weights : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0))

/-! ## The blocks -/

/-- Row `p` of the observation block at point `t` is row `1024·t + p` of the flattened observations. -/
theorem obs_block_flat (c : Dev nD) (t : Fin cfg0.N) (p : Fin 1024) (d : Fin 128) :
    (iblk m c 0 t : Vec Ideal S1024x128 .f32) (ix2 p d)
      = (V m c main_v0 : S65536x128.Idx → EReal)
          (ix2 (⟨1024 * t.val + p.val, by have := t.isLt; have hN : cfg0.N = 64 := N_0; have := p.isLt; omega⟩ : Fin 65536) d) := by
  unfold iblk
  rw [View.read_apply]
  show V m c main_v0 _ = V m c main_v0 _
  congr 1
  funext a
  apply Fin.ext
  match a with
  | ⟨0, _⟩ => show win0_0.index t 0 * 1024 + 1 * p.val = 1024 * t.val + p.val; rw [(index_obs t).1]; omega
  | ⟨1, _⟩ => show win0_0.index t 1 * 128 + 1 * d.val = d.val; rw [(index_obs t).2]; omega

theorem blk1 (c : Dev nD) (t : Fin cfg0.N) : (iblk m c 1 t : Vec Ideal S128x256 .f32) = (V m c main_v1 : S128x256.Idx → EReal) := by
  funext x; unfold iblk; rw [View.read_apply]
  show V m c main_v1 _ = V m c main_v1 _
  congr 1; funext a; apply Fin.ext
  match a with
  | ⟨0, _⟩ => show win0_1.index t 0 * 128 + 1 * (x 0).val = (x 0).val; rw [(index_weights t).1.1]; omega
  | ⟨1, _⟩ => show win0_1.index t 1 * 256 + 1 * (x 1).val = (x 1).val; rw [(index_weights t).1.2]; omega

theorem blk2 (c : Dev nD) (t : Fin cfg0.N) : (iblk m c 2 t : Vec Ideal S1x256 .f32) = (V m c main_v6 : S1x256.Idx → EReal) := by
  funext x; unfold iblk; rw [View.read_apply]
  show V m c main_v6 _ = V m c main_v6 _
  congr 1; funext a; apply Fin.ext
  match a with
  | ⟨0, _⟩ => show win0_2.index t 0 * 1 + 1 * (x 0).val = (x 0).val; rw [(index_weights t).2.1.1]; omega
  | ⟨1, _⟩ => show win0_2.index t 1 * 256 + 1 * (x 1).val = (x 1).val; rw [(index_weights t).2.1.2]; omega

theorem blk3 (c : Dev nD) (t : Fin cfg0.N) : (iblk m c 3 t : Vec Ideal S256x256 .f32) = (V m c main_v2 : S256x256.Idx → EReal) := by
  funext x; unfold iblk; rw [View.read_apply]
  show V m c main_v2 _ = V m c main_v2 _
  congr 1; funext a; apply Fin.ext
  match a with
  | ⟨0, _⟩ => show win0_3.index t 0 * 256 + 1 * (x 0).val = (x 0).val; rw [(index_weights t).2.2.1.1]; omega
  | ⟨1, _⟩ => show win0_3.index t 1 * 256 + 1 * (x 1).val = (x 1).val; rw [(index_weights t).2.2.1.2]; omega

theorem blk4 (c : Dev nD) (t : Fin cfg0.N) : (iblk m c 4 t : Vec Ideal S1x256 .f32) = (V m c main_v7 : S1x256.Idx → EReal) := by
  funext x; unfold iblk; rw [View.read_apply]
  show V m c main_v7 _ = V m c main_v7 _
  congr 1; funext a; apply Fin.ext
  match a with
  | ⟨0, _⟩ => show win0_4.index t 0 * 1 + 1 * (x 0).val = (x 0).val; rw [(index_weights t).2.2.2.1.1]; omega
  | ⟨1, _⟩ => show win0_4.index t 1 * 256 + 1 * (x 1).val = (x 1).val; rw [(index_weights t).2.2.2.1.2]; omega

theorem blk5 (c : Dev nD) (t : Fin cfg0.N) : (iblk m c 5 t : Vec Ideal S256x768 .f32) = (V m c main_v3 : S256x768.Idx → EReal) := by
  funext x; unfold iblk; rw [View.read_apply]
  show V m c main_v3 _ = V m c main_v3 _
  congr 1; funext a; apply Fin.ext
  match a with
  | ⟨0, _⟩ => show win0_5.index t 0 * 256 + 1 * (x 0).val = (x 0).val; rw [(index_weights t).2.2.2.2.1.1]; omega
  | ⟨1, _⟩ => show win0_5.index t 1 * 768 + 1 * (x 1).val = (x 1).val; rw [(index_weights t).2.2.2.2.1.2]; omega

theorem blk6 (c : Dev nD) (t : Fin cfg0.N) : (iblk m c 6 t : Vec Ideal S1x768 .f32) = (V m c main_v8 : S1x768.Idx → EReal) := by
  funext x; unfold iblk; rw [View.read_apply]
  show V m c main_v8 _ = V m c main_v8 _
  congr 1; funext a; apply Fin.ext
  match a with
  | ⟨0, _⟩ => show win0_6.index t 0 * 1 + 1 * (x 0).val = (x 0).val; rw [(index_weights t).2.2.2.2.2.1.1]; omega
  | ⟨1, _⟩ => show win0_6.index t 1 * 768 + 1 * (x 1).val = (x 1).val; rw [(index_weights t).2.2.2.2.2.1.2]; omega

theorem blk7 (c : Dev nD) (t : Fin cfg0.N) : (iblk m c 7 t : Vec Ideal S256x768 .f32) = (V m c main_v4 : S256x768.Idx → EReal) := by
  funext x; unfold iblk; rw [View.read_apply]
  show V m c main_v4 _ = V m c main_v4 _
  congr 1; funext a; apply Fin.ext
  match a with
  | ⟨0, _⟩ => show win0_7.index t 0 * 256 + 1 * (x 0).val = (x 0).val; rw [(index_weights t).2.2.2.2.2.2.1.1]; omega
  | ⟨1, _⟩ => show win0_7.index t 1 * 768 + 1 * (x 1).val = (x 1).val; rw [(index_weights t).2.2.2.2.2.2.1.2]; omega

theorem blk8 (c : Dev nD) (t : Fin cfg0.N) : (iblk m c 8 t : Vec Ideal S1x768 .f32) = (V m c main_v9 : S1x768.Idx → EReal) := by
  funext x; unfold iblk; rw [View.read_apply]
  show V m c main_v9 _ = V m c main_v9 _
  congr 1; funext a; apply Fin.ext
  match a with
  | ⟨0, _⟩ => show win0_8.index t 0 * 1 + 1 * (x 0).val = (x 0).val; rw [(index_weights t).2.2.2.2.2.2.2.1.1]; omega
  | ⟨1, _⟩ => show win0_8.index t 1 * 768 + 1 * (x 1).val = (x 1).val; rw [(index_weights t).2.2.2.2.2.2.2.1.2]; omega

theorem blk9 (c : Dev nD) (t : Fin cfg0.N) : (iblk m c 9 t : Vec Ideal S256x1 .f32) = (V m c main_v5 : S256x1.Idx → EReal) := by
  funext x; unfold iblk; rw [View.read_apply]
  show V m c main_v5 _ = V m c main_v5 _
  congr 1; funext a; apply Fin.ext
  match a with
  | ⟨0, _⟩ => show win0_9.index t 0 * 256 + 1 * (x 0).val = (x 0).val; rw [(index_weights t).2.2.2.2.2.2.2.2.1.1]; omega
  | ⟨1, _⟩ => show win0_9.index t 1 * 1 + 1 * (x 1).val = (x 1).val; rw [(index_weights t).2.2.2.2.2.2.2.2.1.2]; omega

theorem blk10 (c : Dev nD) (t : Fin cfg0.N) : (iblk m c 10 t : Vec Ideal S1x1 .f32) = (V m c main_v10 : S1x1.Idx → EReal) := by
  funext x; unfold iblk; rw [View.read_apply]
  show V m c main_v10 _ = V m c main_v10 _
  congr 1; funext a; apply Fin.ext
  match a with
  | ⟨0, _⟩ => show win0_10.index t 0 * 1 + 1 * (x 0).val = (x 0).val; rw [(index_weights t).2.2.2.2.2.2.2.2.2.1]; omega
  | ⟨1, _⟩ => show win0_10.index t 1 * 1 + 1 * (x 1).val = (x 1).val; rw [(index_weights t).2.2.2.2.2.2.2.2.2.2]; omega

/-- The weights a grid point sees are the argument weights, in the specification's layout. -/
theorem weights_block (c : Dev nD) (t : Fin cfg0.N) :
    Rows.blockWeights (iblk m c 1 t) (iblk m c 2 t) (iblk m c 3 t) (iblk m c 4 t) (iblk m c 5 t) (iblk m c 6 t)
        (iblk m c 7 t) (iblk m c 8 t) (iblk m c 9 t) (iblk m c 10 t)
      = Comm.weightsOf (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9))
          (m ((c : Thread nD τ).loc main_arg10)) (m ((c : Thread nD τ).loc main_arg11)) := by
  rw [blk1, blk2, blk3, blk4, blk5, blk6, blk7, blk8, blk9, blk10]
  unfold Rows.blockWeights Comm.weightsOf
  congr 1
  · funext d k; exact V_encW m c d k
  · funext k; exact V_encb m c 0 k
  · funext k j; exact V_fobsW m c k j
  · funext j; exact V_fobsb m c 0 j
  · funext k g; exact V_Wih m c k g
  · funext g; exact V_bih m c 0 g
  · funext k g; exact V_Whh m c k g
  · funext g; exact V_bhh m c 0 g
  · funext k; exact V_decW m c k 0
  · exact V_decb m c 0 0

/-- Row `p` of the observation block at point `t`, as a row of the observations. -/
theorem obs_block (c : Dev nD) (t : Fin cfg0.N) (p : Fin 1024) (d : Fin 128) :
    (iblk m c 0 t : Vec Ideal S1024x128 .f32) (ix2 p d)
      = ((m ((c : Thread nD τ).loc main_arg0)) : S2048x32x128.Idx → EReal)
          (ix3 (⟨(1024 * t.val + p.val) / 32, by have := t.isLt; have hN : cfg0.N = 64 := N_0; have := p.isLt; omega⟩ : Fin 2048)
            (⟨(1024 * t.val + p.val) % 32, Nat.mod_lt _ (by decide)⟩ : Fin 32) d) := by
  rw [obs_block_flat, V_obs]

end Cert.KernelIdeal.Arr

end
-- ==== Proof.KernelValue.lean ====
/-
  The kernel's result array as one function of the argument arrays.

  At grid point `t` the body stores, in row `p` of its output block, the specification's result for the agent
  of row `p`, computed from the 32 rows of `p`'s batch entry, all of which lie in the same block because a block
  of 1024 rows is 32 whole batch entries.  Block `t` is written back to rows `1024·t … 1024·t + 1023` of a
  [65536, 1] array, the 64 blocks tile it, and the host reshapes it to [2048, 32, 1]: entry (`b`, `a`) is row
  `32·b + a`.  So the result is `Comm.result` of the argument arrays.
-/
import proofs.«135045_j23081154249051_1_alg».proof.Proof.Gen.KernelIdeal.Frame
import proofs.«135045_j23081154249051_1_alg».proof.Proof.Comm
import proofs.«135045_j23081154249051_1_alg».proof.Proof.KernelState
import proofs.«135045_j23081154249051_1_alg».proof.Proof.KernelOut
import proofs.«135045_j23081154249051_1_alg».proof.Proof.KernelInputs
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.Arr

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## One block -/

/-- Row `p` of what the body stores is the result for row `p`'s agent, from the rows of its batch entry. -/
theorem out_block (x0 : Vec Ideal S1024x128 .f32) (x1 : Vec Ideal S128x256 .f32) (x2 : Vec Ideal S1x256 .f32)
    (x3 : Vec Ideal S256x256 .f32) (x4 : Vec Ideal S1x256 .f32) (x5 : Vec Ideal S256x768 .f32)
    (x6 : Vec Ideal S1x768 .f32) (x7 : Vec Ideal S256x768 .f32) (x8 : Vec Ideal S1x768 .f32)
    (x9 : Vec Ideal S256x1 .f32) (x10 : Vec Ideal S1x1 .f32) (p : Fin 1024) :
    out0_11 (F := Ideal) x0 x1 x2 x3 x4 x5 x6 x7 x8 x9 x10 (ix2 p 0)
      = Comm.agent (Rows.blockWeights x1 x2 x3 x4 x5 x6 x7 x8 x9 x10)
          (fun a d => x0 (ix2 (Comm.mate p a) d)) (Comm.agentOf p) := by
  unfold out0_11
  rw [View.canon_unit_zero hz]
  simp only [View.ld_unit_zero (S := S1024x128) hz, View.ld_unit_zero (S := S128x256) hz,
    View.ld_unit_zero (S := S1x256) hz, View.ld_unit_zero (S := S256x256) hz, View.ld_unit_zero (S := S256x768) hz,
    View.ld_unit_zero (S := S1x768) hz, View.ld_unit_zero (S := S256x1) hz, View.ld_unit_zero (S := S1x1) hz]
  refine (Rows.out_rows _ _ _ _ _ _ _ _ x9 x10 (Rows.blockWeights x1 x2 x3 x4 x5 x6 x7 x8 x9 x10)
    (fun q => Comm.state1 (Rows.blockWeights x1 x2 x3 x4 x5 x6 x7 x8 x9 x10) (fun d => x0 (ix2 q d)))
    (fun q j => Rows.state1_rows x0 x1 x2 x3 x4 x5 x6 x7 x8 x9 x10 q j) ?_ ?_ ?_ ?_ ?_ ?_ p).trans ?_
  · intro k g; unfold k0_pay6; rw [shapeCast_self]; rfl
  · intro g; unfold k0_pay5; rw [shapeCast_self]; rfl
  · intro k g; unfold k0_pay3; rw [shapeCast_self]; rfl
  · intro g; unfold k0_pay4; rw [shapeCast_self]; rfl
  · intro k; rfl
  · rfl
  · unfold Comm.agent
    have hp : Comm.mate p (Comm.agentOf p) = p := Fin.ext (by
      show 32 * (p.val / 32) + p.val % 32 = p.val
      omega)
    show Comm.decode _ (Comm.second _ (Comm.mean _ _) _) = Comm.decode _ (Comm.second _ (Comm.mean _ _) (Comm.state1 _ (fun d => x0 (ix2 (Comm.mate p (Comm.agentOf p)) d))))
    rw [hp]

/-! ## The write-backs and the array they leave -/

/-- The output window's block index is the grid point. -/
theorem index_out : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)

/-- The [65536, 1] array the region leaves: row `n` holds the result for agent `n % 32` of batch entry `n / 32`. -/
def outFlat (c : Dev nD) : S65536x1.Idx → EReal := fun i =>
  Comm.result (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
    (ix3 (⟨(i 0).val / 32, by have := idx2_lt0 i; omega⟩ : Fin 2048) (⟨(i 0).val % 32, Nat.mod_lt _ (by decide)⟩ : Fin 32) (0 : Fin 1))

/-- Row `p` of what point `t` leaves in the output's buffer is row `1024·t + p` of that array. -/
theorem flushed_row (c : Dev nD) (t : Fin cfg0.N) (y : S1024x1.Idx) :
    out0_11 (F := Ideal) (iblk m c 0 t) (iblk m c 1 t) (iblk m c 2 t) (iblk m c 3 t) (iblk m c 4 t) (iblk m c 5 t)
        (iblk m c 6 t) (iblk m c 7 t) (iblk m c 8 t) (iblk m c 9 t) (iblk m c 10 t) y
      = outFlat m c (((cfg0.win 11).blk t).view.emb y) := by
  obtain ⟨p, u, rfl⟩ : ∃ (p : Fin 1024) (u : Fin 1), y = ix2 p u := ⟨y 0, y 1, eq_ix2 y⟩
  obtain rfl : u = 0 := Subsingleton.elim _ _
  rw [out_block, weights_block]
  have h0 : ((((cfg0.win 11).blk t).view.emb (ix2 p (0 : Fin 1))) 0).val = 1024 * t.val + p.val := by
    show win0_11.index t 0 * 1024 + 1 * p.val = _
    rw [(index_out t).1]; omega
  unfold outFlat Comm.result
  show Comm.agent _ _ _ = Comm.agent _ _ _
  congr 1
  · funext a d
    rw [obs_block]
    congr 1
    funext q
    match q with
    | ⟨0, _⟩ => exact Fin.ext (by
        show (1024 * t.val + (32 * (p.val / 32) + a.val)) / 32 = ((((cfg0.win 11).blk t).view.emb (ix2 p (0 : Fin 1))) 0).val / 32
        rw [h0]; have := a.isLt; omega)
    | ⟨1, _⟩ => exact Fin.ext (by
        show (1024 * t.val + (32 * (p.val / 32) + a.val)) % 32 = a.val
        have := a.isLt; omega)
    | ⟨2, _⟩ => rfl
  · exact Fin.ext (by
      show p.val % 32 = ((((cfg0.win 11).blk t).view.emb (ix2 p (0 : Fin 1))) 0).val % 32
      rw [h0]; omega)

/-- What point `t` writes back is block `t` of that array. -/
theorem flushed_eq (c : Dev nD) (t : Fin cfg0.N) :
    (dats m 0 c).flushed 11 t = ((cfg0.win 11).blk t).view.read (Elt Ideal) (outFlat m c) := by
  show (cfg0.win 11).cut (grid0.coords t) ((dats m 0 c).after 11 t) = _
  rw [after0_11]
  funext y
  exact flushed_row m c t y

/-- An index of the array is in point `t`'s block iff each coordinate is in the block's range on its axis. -/
theorem mem_blk_out (t : Fin cfg0.N) (i : S65536x1.Idx) :
    i ∈ ((cfg0.win 11).blk t).view.set ↔ ∀ a : Fin 2, win0_11.index t a * S1024x1.size a ≤ (i a).val ∧ (i a).val < win0_11.index t a * S1024x1.size a + S1024x1.size a := by
  show i ∈ ((View.whole main_v11).slice (win0_11.rect t)).set ↔ _
  rw [View.set_slice_whole, Rect.mem_set_unit]
  exact Iff.rfl

/-- The 64 blocks tile the array: row `n` is in the block of point `n / 1024`. -/
theorem cover_out (i : S65536x1.Idx) :
    ∃ t : Fin cfg0.N, (cfg0.win 11).flush t = true ∧ i ∈ ((cfg0.win 11).blk t).view.set := by
  have hi0 : (i 0).val < 65536 := idx2_lt0 i
  have hi1 : (i 1).val < 1 := idx2_lt1 i
  have hN : cfg0.N = 64 := N_0
  refine ⟨⟨(i 0).val / 1024, by rw [hN]; omega⟩, flush0_11 _, ?_⟩
  rw [mem_blk_out]
  intro a
  match a with
  | ⟨0, _⟩ =>
    show win0_11.index ⟨(i 0).val / 1024, _⟩ (0 : Fin 2) * 1024 ≤ (i 0).val ∧ (i 0).val < win0_11.index ⟨(i 0).val / 1024, _⟩ (0 : Fin 2) * 1024 + 1024
    rw [(index_out _).1]; show (i 0).val / 1024 * 1024 ≤ (i 0).val ∧ (i 0).val < (i 0).val / 1024 * 1024 + 1024; omega
  | ⟨1, _⟩ =>
    show win0_11.index ⟨(i 0).val / 1024, _⟩ (1 : Fin 2) * 1 ≤ (i 1).val ∧ (i 1).val < win0_11.index ⟨(i 0).val / 1024, _⟩ (1 : Fin 2) * 1 + 1
    rw [(index_out _).2]; omega

/-- The array after the run. -/
theorem final_out (c : Dev nD) : (dats m 0 c).arrAt 11 cfg0.N = outFlat m c :=
  (dats m 0 c).arrAt_eq_of_cover 11 (outFlat m c) (fun t _ => flushed_eq m c t) cover_out

/-! ## The host's reshape after the region, and the run -/

/-- The program's result: entry (`b`, `a`) of the reshaped array is row `32·b + a`, the result for agent `a` of
    batch entry `b`. -/
theorem result_eq (c : Dev nD) :
    Pipeline.afterTail₀ cfgs (dats m) 0 (V0 m) [hostOps1] c main_v12 = Comm.result (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  unfold Pipeline.afterTail₀
  show StableHlo.after hostOps1 _ (Proc.devRef .tc main_v12) = _
  after_results
  have hw : Pipeline.withArrays (cfgs 0).spec c (V0 m c) (fun w => (dats m 0 c).arrAt w (cfgs 0).N)
      (Proc.devRef .tc main_v11) = outFlat m c :=
    (Pipeline.withArrays_arr spec0 launch0.win.arr_inj c _ _ 11).trans (final_out m c)
  funext i
  show shapeCast S2048x32x1 (Pipeline.withArrays (cfgs 0).spec c (V0 m c) (fun w => (dats m 0 c).arrAt w (cfgs 0).N)
      (Proc.devRef .tc main_v11)) shapeCasts_S65536x1_S2048x32x1 i = _
  rw [hw]
  obtain ⟨b, a, u, rfl⟩ : ∃ (b : Fin 2048) (a : Fin 32) (u : Fin 1), i = ix3 b a u := ⟨i 0, i 1, i 2, eq_ix3 i⟩
  obtain rfl : u = 0 := Subsingleton.elim _ _
  refine (shapeCast_apply (s := S65536x1) (t := S2048x32x1) _ _ _ (ix2 (Comm.flat b a) (0 : Fin 1)) ?_).trans ?_
  · rw [Shape.rowMajor_val_three, Shape.rowMajor_val_two]
    show (32 * b.val + a.val) * 1 + 0 = (b.val * 32 + a.val) * 1 + 0
    omega
  · unfold outFlat
    congr 1
    funext q
    match q with
    | ⟨0, _⟩ => exact Fin.ext (by show (32 * b.val + a.val) / 32 = b.val; have := a.isLt; omega)
    | ⟨1, _⟩ => exact Fin.ext (by show (32 * b.val + a.val) % 32 = a.val; have := a.isLt; omega)
    | ⟨2, _⟩ => rfl

/-- The run, read: every weakly fair execution ends with the result array at `Comm.result` of the argument
    arrays, and the argument arrays unchanged. -/
theorem run : θ_run defs (onTc (τ := τ) (main (F := Ideal))) ⟨m, fun _ => 0, ρ⟩ (fun r => ∀ c : Dev nD,
      r.2.mem ((c.tc : Thread nD τ).loc main_v12) = Comm.result (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨
      ((h c).2 main_v12 (Pipeline.mem_restRefs_of main_v12 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩)
    (run_main m ρ)

end Cert.KernelIdeal.Arr

end
-- ==== Proof.RefState.lean ====
/-
  Row `n` of the reference program's array after its first recurrent cell, read one entry at a time.

  The flattened observation row `n` (agent `n % 32` of batch entry `n / 32`) is sent through `x·W1 + b1`, clamped
  below at `0`, and through `·W2 + b2`.  The cell's input is the zero array, so every product in its input-side sum is
  `0 · w = 0` and the input-side gate row is the bias alone; the hidden-side gate row is an affine map of the state.
  The two quotients `1 / (1 + exp (-x))` are the logistic function, and the remaining entrywise arithmetic is
  `(1 − z) · tanh (gi_n + r · gh_n) + z · h`, which is the first-step state of the specification.
-/
import proofs.«135045_j23081154249051_1_alg».proof.Proof.Gen.ReferenceIdeal.Read
import proofs.«135045_j23081154249051_1_alg».proof.Proof.Comm
import proofs.«135045_j23081154249051_1_alg».proof.Proof.Constants
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Rows

open Cert.ReferenceIdeal Cert.ReferenceIdeal.Read Idealize.ShloMosaic Idealize.ShloMosaic.ValueIdx

/-- Row `n` of the observations flattened to 65536 rows: agent `n % 32` of batch entry `n / 32`. -/
def obsRow (x0 : (⟨S2048x32x128, .f32⟩ : BufTy).Contents (Elt Ideal)) (n : Fin 65536) : Comm.Row 128 :=
  fun d => x0 (ix3 (⟨n.val / 32, by have := n.isLt; omega⟩ : Fin 2048) (⟨n.val % 32, Nat.mod_lt _ (by decide)⟩ : Fin 32) d)

/-- The observation row read through the reshape: entry `d` of flattened row `n`. -/
theorem obs_idx (n : Fin 65536) (k : Fin 256) (d : Fin 128) :
    idx_main_v0 (lidx_main_v2 (ix2 n k) d)
      = ix3 (⟨n.val / 32, by have := n.isLt; omega⟩ : Fin 2048) (⟨n.val % 32, Nat.mod_lt _ (by decide)⟩ : Fin 32) d :=
  funext fun a => Fin.ext (by
    have hn := n.isLt
    have hd := d.isLt
    match a with
    | ⟨0, _⟩ => show (n.val * 128 + d.val) / 4096 = n.val / 32; omega
    | ⟨1, _⟩ => show (n.val * 128 + d.val) / 128 % 32 = n.val % 32; omega
    | ⟨2, _⟩ => show (n.val * 128 + d.val) % 128 = d.val; omega)

theorem encW_idx (n : Fin 65536) (k : Fin 256) (d : Fin 128) :
    idx_main_v1 (ridx_main_v2 (ix2 n k) d) = ix2 k d :=
  funext fun a => Fin.ext (by
    match a with
    | ⟨0, _⟩ => rfl
    | ⟨1, _⟩ => rfl)

theorem encb_idx (n : Fin 65536) (k : Fin 256) :
    idx_main_v3 (idx_main_v4 (ix2 n k)) = ix1 k :=
  funext fun a => Fin.ext (by
    match a with
    | ⟨0, _⟩ => rfl)

/-- The encoder row clamped below at zero. -/
theorem relu_ref (x0 : (⟨S2048x32x128, .f32⟩ : BufTy).Contents (Elt Ideal)) (x2 : (⟨S256x128, .f32⟩ : BufTy).Contents (Elt Ideal)) (x3 : (⟨S256, .f32⟩ : BufTy).Contents (Elt Ideal))
    (n : Fin 65536) (k : Fin 256) :
    val_main_v6 (F := Ideal) x0 x2 x3 (ix2 n k)
      = max (Comm.lin (fun d k => x2 (ix2 k d)) (fun k => x3 (ix1 k)) (obsRow x0 n) k) 0 := by
  rw [val_main_v6_apply, val_main_v5_apply, val_main_v2_apply, val_main_v4_apply, val_main_v3_apply,
    val_main_call0_v0_apply, val_main_call0_cst_apply]
  simp only [val_main_v0_apply, val_main_v1_apply, obs_idx, encW_idx, encb_idx, Ideal.addf_def, Ideal.maximumf_def,
    Ideal.ofBits_def, Ideal.ofBits_zero_f32]
  rfl

theorem fobsW_idx (n : Fin 65536) (j : Fin 256) (k : Fin 256) :
    idx_main_v7 (ridx_main_v8 (ix2 n j) k) = ix2 j k :=
  funext fun a => Fin.ext (by
    match a with
    | ⟨0, _⟩ => rfl
    | ⟨1, _⟩ => rfl)

theorem relu_idx (n : Fin 65536) (j : Fin 256) (k : Fin 256) :
    lidx_main_v8 (ix2 n j) k = ix2 n k :=
  funext fun a => Fin.ext (by
    match a with
    | ⟨0, _⟩ => rfl
    | ⟨1, _⟩ => rfl)

theorem fobsb_idx (n : Fin 65536) (j : Fin 256) :
    idx_main_v9 (idx_main_v10 (ix2 n j)) = ix1 j :=
  funext fun a => Fin.ext (by
    match a with
    | ⟨0, _⟩ => rfl)

/-- The projected encoder row: the state before the first cell. -/
theorem hidden_ref (x0 : (⟨S2048x32x128, .f32⟩ : BufTy).Contents (Elt Ideal)) (x2 : (⟨S256x128, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (n : Fin 65536) (j : Fin 256) :
    val_main_v11 (F := Ideal) x0 x2 x3 x4 x5 (ix2 n j)
      = Comm.lin (fun k j => x4 (ix2 j k)) (fun j => x5 (ix1 j))
          (fun k => max (Comm.lin (fun d k => x2 (ix2 k d)) (fun k => x3 (ix1 k)) (obsRow x0 n) k) 0) j := by
  rw [val_main_v11_apply, val_main_v8_apply, val_main_v10_apply, val_main_v9_apply]
  simp only [val_main_v7_apply, relu_idx, relu_ref, fobsW_idx, fobsb_idx, Ideal.addf_def]
  rfl

theorem bih_idx (n : Fin 65536) (g : Fin 768) :
    idx_main_v15 (idx_main_v16 (ix2 n g)) = ix1 g :=
  funext fun a => Fin.ext (by
    match a with
    | ⟨0, _⟩ => rfl)

/-- The input-side gate row of the first cell: its input is the zero vector, so only the bias is left. -/
theorem gi_ref (x6 : (⟨S768x256, .f32⟩ : BufTy).Contents (Elt Ideal)) (x7 : (⟨S768, .f32⟩ : BufTy).Contents (Elt Ideal))
    (n : Fin 65536) (g : Fin 768) :
    val_main_v17 (F := Ideal) x6 x7 (ix2 n g) = x7 (ix1 g) := by
  rw [val_main_v17_apply, val_main_v14_apply, val_main_v16_apply, val_main_v15_apply]
  simp only [val_main_v12_apply, val_main_cst_apply, bih_idx, Ideal.addf_def, Ideal.ofBits_def, Ideal.ofBits_zero_f32,
    zero_mul, Finset.sum_const_zero, zero_add]

theorem Whh_idx (n : Fin 65536) (g : Fin 768) (k : Fin 256) :
    idx_main_v18 (ridx_main_v19 (ix2 n g) k) = ix2 g k :=
  funext fun a => Fin.ext (by
    match a with
    | ⟨0, _⟩ => rfl
    | ⟨1, _⟩ => rfl)

theorem hid_idx (n : Fin 65536) (g : Fin 768) (k : Fin 256) :
    lidx_main_v19 (ix2 n g) k = ix2 n k :=
  funext fun a => Fin.ext (by
    match a with
    | ⟨0, _⟩ => rfl
    | ⟨1, _⟩ => rfl)

theorem bhh_idx (n : Fin 65536) (g : Fin 768) :
    idx_main_v20 (idx_main_v21 (ix2 n g)) = ix1 g :=
  funext fun a => Fin.ext (by
    match a with
    | ⟨0, _⟩ => rfl)

/-- The hidden-side gate row of the first cell, as an affine map of the state before the cell. -/
theorem gh_ref (x0 : (⟨S2048x32x128, .f32⟩ : BufTy).Contents (Elt Ideal)) (x2 : (⟨S256x128, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x8 : (⟨S768x256, .f32⟩ : BufTy).Contents (Elt Ideal)) (x9 : (⟨S768, .f32⟩ : BufTy).Contents (Elt Ideal))
    (n : Fin 65536) (g : Fin 768) :
    val_main_v22 (F := Ideal) x0 x2 x3 x4 x5 x8 x9 (ix2 n g)
      = Comm.lin (fun k g => x8 (ix2 g k)) (fun g => x9 (ix1 g))
          (fun k => val_main_v11 (F := Ideal) x0 x2 x3 x4 x5 (ix2 n k)) g := by
  rw [val_main_v22_apply, val_main_v19_apply, val_main_v21_apply, val_main_v20_apply]
  simp only [val_main_v18_apply, hid_idx, Whh_idx, bhh_idx, Ideal.addf_def]
  rfl

theorem slice0_idx (n : Fin 65536) (j : Fin 256) : idx_main_v23 (ix2 n j) = ix2 n (Comm.gate 0 j) :=
  funext fun a => Fin.ext (by
    match a with
    | ⟨0, _⟩ => rfl
    | ⟨1, _⟩ => show j.val = 256 * 0 + j.val; omega)

theorem slice1_idx (n : Fin 65536) (j : Fin 256) : idx_main_v24 (ix2 n j) = ix2 n (Comm.gate 1 j) :=
  funext fun a => Fin.ext (by
    match a with
    | ⟨0, _⟩ => rfl
    | ⟨1, _⟩ => show 256 + j.val = 256 * 1 + j.val; omega)

theorem slice2_idx (n : Fin 65536) (j : Fin 256) : idx_main_v25 (ix2 n j) = ix2 n (Comm.gate 2 j) :=
  funext fun a => Fin.ext (by
    match a with
    | ⟨0, _⟩ => rfl
    | ⟨1, _⟩ => show 512 + j.val = 256 * 2 + j.val; omega)

theorem slice0h_idx (n : Fin 65536) (j : Fin 256) : idx_main_v26 (ix2 n j) = ix2 n (Comm.gate 0 j) :=
  funext fun a => Fin.ext (by
    match a with
    | ⟨0, _⟩ => rfl
    | ⟨1, _⟩ => show j.val = 256 * 0 + j.val; omega)

theorem slice1h_idx (n : Fin 65536) (j : Fin 256) : idx_main_v27 (ix2 n j) = ix2 n (Comm.gate 1 j) :=
  funext fun a => Fin.ext (by
    match a with
    | ⟨0, _⟩ => rfl
    | ⟨1, _⟩ => show 256 + j.val = 256 * 1 + j.val; omega)

theorem slice2h_idx (n : Fin 65536) (j : Fin 256) : idx_main_v28 (ix2 n j) = ix2 n (Comm.gate 2 j) :=
  funext fun a => Fin.ext (by
    match a with
    | ⟨0, _⟩ => rfl
    | ⟨1, _⟩ => show 512 + j.val = 256 * 2 + j.val; omega)

/-- The reset gate: the expanded quotient `1 / (1 + exp (-x))` is the logistic function. -/
theorem reset_ref (x0 : (⟨S2048x32x128, .f32⟩ : BufTy).Contents (Elt Ideal)) (x2 : (⟨S256x128, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) (x6 : (⟨S768x256, .f32⟩ : BufTy).Contents (Elt Ideal)) (x7 : (⟨S768, .f32⟩ : BufTy).Contents (Elt Ideal))
    (x8 : (⟨S768x256, .f32⟩ : BufTy).Contents (Elt Ideal)) (x9 : (⟨S768, .f32⟩ : BufTy).Contents (Elt Ideal))
    (n : Fin 65536) (j : Fin 256) :
    val_main_v35 (F := Ideal) x0 x2 x3 x4 x5 x6 x7 x8 x9 (ix2 n j)
      = Ideal.logistic (x7 (ix1 (Comm.gate 0 j))
          + val_main_v22 (F := Ideal) x0 x2 x3 x4 x5 x8 x9 (ix2 n (Comm.gate 0 j))) := by
  rw [val_main_v35_apply, val_main_v34_apply, val_main_cst_1_apply, val_main_v33_apply, val_main_v32_apply,
    val_main_cst_0_apply, val_main_v31_apply, val_main_v30_apply, val_main_v29_apply, val_main_v23_apply,
    val_main_v26_apply, slice0_idx, slice0h_idx, gi_ref]
  simp only [Ideal.addf_def, Ideal.hostDivf_def, Ideal.hostNegf_def, Ideal.hostUnary_exp_def, Ideal.ofBits_def]
  exact Comm.sigmoid_expanded _

/-- The update gate, likewise. -/
theorem update_ref (x0 : (⟨S2048x32x128, .f32⟩ : BufTy).Contents (Elt Ideal)) (x2 : (⟨S256x128, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) (x6 : (⟨S768x256, .f32⟩ : BufTy).Contents (Elt Ideal)) (x7 : (⟨S768, .f32⟩ : BufTy).Contents (Elt Ideal))
    (x8 : (⟨S768x256, .f32⟩ : BufTy).Contents (Elt Ideal)) (x9 : (⟨S768, .f32⟩ : BufTy).Contents (Elt Ideal))
    (n : Fin 65536) (j : Fin 256) :
    val_main_v42 (F := Ideal) x0 x2 x3 x4 x5 x6 x7 x8 x9 (ix2 n j)
      = Ideal.logistic (x7 (ix1 (Comm.gate 1 j))
          + val_main_v22 (F := Ideal) x0 x2 x3 x4 x5 x8 x9 (ix2 n (Comm.gate 1 j))) := by
  rw [val_main_v42_apply, val_main_v41_apply, val_main_cst_3_apply, val_main_v40_apply, val_main_v39_apply,
    val_main_cst_2_apply, val_main_v38_apply, val_main_v37_apply, val_main_v36_apply, val_main_v24_apply,
    val_main_v27_apply, slice1_idx, slice1h_idx, gi_ref]
  simp only [Ideal.addf_def, Ideal.hostDivf_def, Ideal.hostNegf_def, Ideal.hostUnary_exp_def, Ideal.ofBits_def]
  exact Comm.sigmoid_expanded _

/-- The candidate state: `tanh` of the input-side entry plus the reset gate times the hidden-side entry. -/
theorem cand_ref (x0 : (⟨S2048x32x128, .f32⟩ : BufTy).Contents (Elt Ideal)) (x2 : (⟨S256x128, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) (x6 : (⟨S768x256, .f32⟩ : BufTy).Contents (Elt Ideal)) (x7 : (⟨S768, .f32⟩ : BufTy).Contents (Elt Ideal))
    (x8 : (⟨S768x256, .f32⟩ : BufTy).Contents (Elt Ideal)) (x9 : (⟨S768, .f32⟩ : BufTy).Contents (Elt Ideal))
    (n : Fin 65536) (j : Fin 256) :
    val_main_v45 (F := Ideal) x0 x2 x3 x4 x5 x6 x7 x8 x9 (ix2 n j)
      = Ideal.tanh (x7 (ix1 (Comm.gate 2 j))
          + Ideal.logistic (x7 (ix1 (Comm.gate 0 j))
              + val_main_v22 (F := Ideal) x0 x2 x3 x4 x5 x8 x9 (ix2 n (Comm.gate 0 j)))
            * val_main_v22 (F := Ideal) x0 x2 x3 x4 x5 x8 x9 (ix2 n (Comm.gate 2 j))) := by
  rw [val_main_v45_apply, val_main_v44_apply, val_main_v43_apply, val_main_v25_apply, val_main_v28_apply,
    slice2_idx, slice2h_idx, gi_ref, reset_ref]
  simp only [Ideal.addf_def, Ideal.mulf_def, Ideal.hostUnary_tanh_def]

/-- Row `n` of the reference's state after the first GRU step is the agent's state of observation row `n`. -/
theorem state1_ref (x0 : (⟨S2048x32x128, .f32⟩ : BufTy).Contents (Elt Ideal)) (x2 : (⟨S256x128, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) (x6 : (⟨S768x256, .f32⟩ : BufTy).Contents (Elt Ideal)) (x7 : (⟨S768, .f32⟩ : BufTy).Contents (Elt Ideal))
    (x8 : (⟨S768x256, .f32⟩ : BufTy).Contents (Elt Ideal)) (x9 : (⟨S768, .f32⟩ : BufTy).Contents (Elt Ideal)) (x10 : (⟨S1x256, .f32⟩ : BufTy).Contents (Elt Ideal)) (x11 : (⟨S1, .f32⟩ : BufTy).Contents (Elt Ideal)) (n : Fin 65536) (j : Fin 256) :
    val_main_v50 (F := Ideal) x0 x2 x3 x4 x5 x6 x7 x8 x9 (ix2 n j)
      = Comm.state1 (Comm.weightsOf x2 x3 x4 x5 x6 x7 x8 x9 x10 x11) (obsRow x0 n) j := by
  rw [val_main_v50_apply, val_main_v48_apply, val_main_v49_apply, val_main_v47_apply, val_main_v46_apply,
    val_main_cst_4_apply, update_ref, cand_ref]
  simp only [gh_ref, hidden_ref, Ideal.addf_def, Ideal.mulf_def, Ideal.subf_def, Ideal.ofBits_def, Comm.ofBits_one]
  rfl

end Cert.ReferenceIdeal.Rows

end
-- ==== Proof.RefOut.lean ====
/-
  The reference program from its state after the first GRU step to its result.  Given the rows `H` of that state
  (row `32·b + a` is agent `a` of batch entry `b`), the row an agent receives is the sum of the 32 states of its
  batch entry less its own, times `1/32`; the second GRU cell takes that row as its input (gate rows `c·W_ih + b_ih`
  and `h·W_hh + b_hh`, the logistic function written `1 / (1 + exp (−x))`), and the decoder reads one number off the
  new state.  Each group of stages is read at one index and identified with its part of the specification.
-/
import proofs.«135045_j23081154249051_1_alg».proof.Proof.Gen.ReferenceIdeal.Read
import proofs.«135045_j23081154249051_1_alg».proof.Proof.Comm
import proofs.«135045_j23081154249051_1_alg».proof.Proof.Constants
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Rows

open Cert.ReferenceIdeal Cert.ReferenceIdeal.Read Idealize.ShloMosaic Idealize.ShloMosaic.ValueIdx

section Stages

variable (x0 : (⟨S2048x32x128, .f32⟩ : BufTy).Contents (Elt Ideal)) (x2 : (⟨S256x128, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal)) (x6 : (⟨S768x256, .f32⟩ : BufTy).Contents (Elt Ideal)) (x7 : (⟨S768, .f32⟩ : BufTy).Contents (Elt Ideal))
  (x8 : (⟨S768x256, .f32⟩ : BufTy).Contents (Elt Ideal)) (x9 : (⟨S768, .f32⟩ : BufTy).Contents (Elt Ideal)) (x10 : (⟨S1x256, .f32⟩ : BufTy).Contents (Elt Ideal)) (x11 : (⟨S1, .f32⟩ : BufTy).Contents (Elt Ideal))
  (H : Fin 65536 → Comm.Row 256)

/-- Row `32·b + a` of the flat array, column `k`, is entry (`b`, `a`, `k`) of the array with the agents on their own axis. -/
theorem idx_unflat (b : Fin 2048) (a : Fin 32) (k : Fin 256) :
    idx_main_v58 (ix2 (Comm.flat b a) k) = ix3 b a k :=
  funext fun d => Fin.ext (by
    have hb := b.isLt; have ha := a.isLt; have hk := k.isLt
    match d with
    | ⟨0, _⟩ => show ((32 * b.val + a.val) * 256 + k.val) / 8192 = b.val; omega
    | ⟨1, _⟩ => show ((32 * b.val + a.val) * 256 + k.val) / 256 % 32 = a.val; omega
    | ⟨2, _⟩ => show ((32 * b.val + a.val) * 256 + k.val) % 256 = k.val; omega)

/-- And back: entry (`b`, `a`, `k`) is row `32·b + a`, column `k`, of the flat array. -/
theorem idx_flat (b : Fin 2048) (a : Fin 32) (k : Fin 256) :
    idx_main_v51 (ix3 b a k) = ix2 (Comm.flat b a) k :=
  funext fun d => Fin.ext (by
    have hb := b.isLt; have ha := a.isLt; have hk := k.isLt
    match d with
    | ⟨0, _⟩ => show ((b.val * 32 + a.val) * 256 + k.val) / 256 = 32 * b.val + a.val; omega
    | ⟨1, _⟩ => show ((b.val * 32 + a.val) * 256 + k.val) % 256 = k.val; omega)

/-- The state after the first step, agents on their own axis, read off the rows `H`. -/
theorem state_entry (hH : ∀ n j, val_main_v50 (F := Ideal) x0 x2 x3 x4 x5 x6 x7 x8 x9 (ix2 n j) = H n j)
    (b : Fin 2048) (a : Fin 32) (k : Fin 256) :
    val_main_v51 (F := Ideal) x0 x2 x3 x4 x5 x6 x7 x8 x9 (ix3 b a k) = H (Comm.flat b a) k := by
  rw [val_main_v51_apply, idx_flat, hH]

/-- The row an agent receives: the sum over the 32 agents of its batch entry, less its own state, times `1/32`. -/
theorem mean_row (hH : ∀ n j, val_main_v50 (F := Ideal) x0 x2 x3 x4 x5 x6 x7 x8 x9 (ix2 n j) = H n j)
    (b : Fin 2048) (a : Fin 32) (k : Fin 256) :
    val_main_v58 (F := Ideal) x0 x2 x3 x4 x5 x6 x7 x8 x9 (ix2 (Comm.flat b a) k)
      = Comm.mean (fun a' => H (Comm.flat b a')) a k := by
  rw [val_main_v58_apply, idx_unflat, val_main_v57_apply, val_main_v55_apply, val_main_v54_apply, val_main_v53_apply,
    val_main_v52_apply, val_main_v56_apply, val_main_cst_6_apply, val_main_cst_5_apply]
  have e : ∀ a' : Fin 32, idx_main_v52 (idx_main_v53 (idx_main_v54 (ix3 b a k))) a' = ix3 b a' k := fun a' =>
    funext fun d => Fin.ext (by match d with | ⟨0, _⟩ => rfl | ⟨1, _⟩ => rfl | ⟨2, _⟩ => rfl)
  simp only [e, state_entry x0 x2 x3 x4 x5 x6 x7 x8 x9 H hH, Ideal.hostDivf_def, Ideal.subf_def, Ideal.ofBits_def,
    Ideal.ofBits_zero_f32, zero_add, Comm.div_32]
  rfl

/-- The input-side gate pre-activations of row `n`: the affine map `c ↦ c·W_ih + b_ih` of the row `c` it is fed. -/
theorem gates_in (c : Comm.Row 256) (n : Fin 65536)
    (hc : ∀ k, val_main_v58 (F := Ideal) x0 x2 x3 x4 x5 x6 x7 x8 x9 (ix2 n k) = c k) (g : Fin 768) :
    val_main_v63 (F := Ideal) x0 x2 x3 x4 x5 x6 x7 x8 x9 (ix2 n g) = Comm.lin (Comm.weightsOf x2 x3 x4 x5 x6 x7 x8 x9 x10 x11).Wi (Comm.weightsOf x2 x3 x4 x5 x6 x7 x8 x9 x10 x11).bi c g := by
  rw [val_main_v63_apply, val_main_v60_apply, val_main_v62_apply, val_main_v61_apply]
  have el : ∀ k : Fin 256, lidx_main_v60 (ix2 n g) k = ix2 n k := fun k =>
    funext fun d => Fin.ext (by match d with | ⟨0, _⟩ => rfl | ⟨1, _⟩ => rfl)
  have er : ∀ k : Fin 256, idx_main_v59 (ridx_main_v60 (ix2 n g) k) = ix2 g k := fun k =>
    funext fun d => Fin.ext (by match d with | ⟨0, _⟩ => rfl | ⟨1, _⟩ => rfl)
  have eb : idx_main_v61 (idx_main_v62 (ix2 n g)) = ix1 g :=
    funext fun d => Fin.ext (by match d with | ⟨0, _⟩ => rfl)
  simp only [val_main_v59_apply, el, er, eb, hc, Ideal.addf_def]
  rfl

/-- The hidden-side gate pre-activations of row `n`: `h ↦ h·W_hh + b_hh` of the row's own state. -/
theorem gates_hid (hH : ∀ n j, val_main_v50 (F := Ideal) x0 x2 x3 x4 x5 x6 x7 x8 x9 (ix2 n j) = H n j) (n : Fin 65536) (g : Fin 768) :
    val_main_v68 (F := Ideal) x0 x2 x3 x4 x5 x6 x7 x8 x9 (ix2 n g) = Comm.lin (Comm.weightsOf x2 x3 x4 x5 x6 x7 x8 x9 x10 x11).Wh (Comm.weightsOf x2 x3 x4 x5 x6 x7 x8 x9 x10 x11).bh (H n) g := by
  rw [val_main_v68_apply, val_main_v65_apply, val_main_v67_apply, val_main_v66_apply]
  have el : ∀ k : Fin 256, lidx_main_v65 (ix2 n g) k = ix2 n k := fun k =>
    funext fun d => Fin.ext (by match d with | ⟨0, _⟩ => rfl | ⟨1, _⟩ => rfl)
  have er : ∀ k : Fin 256, idx_main_v64 (ridx_main_v65 (ix2 n g) k) = ix2 g k := fun k =>
    funext fun d => Fin.ext (by match d with | ⟨0, _⟩ => rfl | ⟨1, _⟩ => rfl)
  have eb : idx_main_v66 (idx_main_v67 (ix2 n g)) = ix1 g :=
    funext fun d => Fin.ext (by match d with | ⟨0, _⟩ => rfl)
  simp only [val_main_v64_apply, el, er, eb, hH, Ideal.addf_def]
  rfl

/-- The cell: from the two gate rows and the previous state of row `n`, the thirds of the gate rows are the reset,
    update and candidate parts, `1 / (1 + exp (−x))` is the logistic function, and the new state is
    `(1 − z) · tanh (gi_n + r · gh_n) + z · h`. -/
theorem cell (gi gh : Comm.Row 768) (h : Comm.Row 256) (n : Fin 65536)
    (hgi : ∀ g, val_main_v63 (F := Ideal) x0 x2 x3 x4 x5 x6 x7 x8 x9 (ix2 n g) = gi g)
    (hgh : ∀ g, val_main_v68 (F := Ideal) x0 x2 x3 x4 x5 x6 x7 x8 x9 (ix2 n g) = gh g)
    (hh : ∀ j, val_main_v50 (F := Ideal) x0 x2 x3 x4 x5 x6 x7 x8 x9 (ix2 n j) = h j) (j : Fin 256) :
    val_main_v96 (F := Ideal) x0 x2 x3 x4 x5 x6 x7 x8 x9 (ix2 n j) = Comm.gru gi gh h j := by
  have hj := j.isLt
  have e69 : idx_main_v69 (ix2 n j) = ix2 n (Comm.gate 0 j) :=
    funext fun d => Fin.ext (by match d with | ⟨0, _⟩ => rfl | ⟨1, _⟩ => show j.val = 256 * 0 + j.val; omega)
  have e72 : idx_main_v72 (ix2 n j) = ix2 n (Comm.gate 0 j) :=
    funext fun d => Fin.ext (by match d with | ⟨0, _⟩ => rfl | ⟨1, _⟩ => show j.val = 256 * 0 + j.val; omega)
  have e70 : idx_main_v70 (ix2 n j) = ix2 n (Comm.gate 1 j) :=
    funext fun d => Fin.ext (by match d with | ⟨0, _⟩ => rfl | ⟨1, _⟩ => show 256 + j.val = 256 * 1 + j.val; omega)
  have e73 : idx_main_v73 (ix2 n j) = ix2 n (Comm.gate 1 j) :=
    funext fun d => Fin.ext (by match d with | ⟨0, _⟩ => rfl | ⟨1, _⟩ => show 256 + j.val = 256 * 1 + j.val; omega)
  have e71 : idx_main_v71 (ix2 n j) = ix2 n (Comm.gate 2 j) :=
    funext fun d => Fin.ext (by match d with | ⟨0, _⟩ => rfl | ⟨1, _⟩ => show 512 + j.val = 256 * 2 + j.val; omega)
  have e74 : idx_main_v74 (ix2 n j) = ix2 n (Comm.gate 2 j) :=
    funext fun d => Fin.ext (by match d with | ⟨0, _⟩ => rfl | ⟨1, _⟩ => show 512 + j.val = 256 * 2 + j.val; omega)
  simp only [val_main_v96_apply, val_main_v95_apply, val_main_v94_apply, val_main_v93_apply, val_main_v92_apply,
    val_main_cst_11_apply, val_main_v91_apply, val_main_v90_apply, val_main_v89_apply, val_main_v88_apply,
    val_main_v87_apply, val_main_cst_10_apply, val_main_v86_apply, val_main_v85_apply, val_main_cst_9_apply,
    val_main_v84_apply, val_main_v83_apply, val_main_v82_apply, val_main_v81_apply, val_main_v80_apply,
    val_main_cst_8_apply, val_main_v79_apply, val_main_v78_apply, val_main_cst_7_apply, val_main_v77_apply,
    val_main_v76_apply, val_main_v75_apply, val_main_v74_apply, val_main_v73_apply, val_main_v72_apply,
    val_main_v71_apply, val_main_v70_apply, val_main_v69_apply, e69, e70, e71, e72, e73, e74, hgi, hgh, hh,
    Ideal.addf_def, Ideal.mulf_def, Ideal.subf_def, Ideal.hostDivf_def, Ideal.hostNegf_def, Ideal.negf_def,
    Ideal.hostUnary_exp_def, Ideal.hostUnary_tanh_def, Ideal.ofBits_def, Comm.sigmoid_expanded]
  rw [Comm.ofBits_one]
  rfl

/-- The decoder on row `n`: the state row against the one row of `dec_W`, plus `dec_b`. -/
theorem decoded (s : Comm.Row 256) (n : Fin 65536)
    (hs : ∀ j, val_main_v96 (F := Ideal) x0 x2 x3 x4 x5 x6 x7 x8 x9 (ix2 n j) = s j) :
    val_main_v101 (F := Ideal) x0 x2 x3 x4 x5 x6 x7 x8 x9 x10 x11 (ix2 n (0 : Fin 1)) = Comm.decode (Comm.weightsOf x2 x3 x4 x5 x6 x7 x8 x9 x10 x11) s := by
  rw [val_main_v101_apply, val_main_v98_apply, val_main_v100_apply, val_main_v99_apply]
  have el : ∀ k : Fin 256, lidx_main_v98 (ix2 n (0 : Fin 1)) k = ix2 n k := fun k =>
    funext fun d => Fin.ext (by match d with | ⟨0, _⟩ => rfl | ⟨1, _⟩ => rfl)
  have er : ∀ k : Fin 256, idx_main_v97 (ridx_main_v98 (ix2 n (0 : Fin 1)) k) = ix2 (0 : Fin 1) k := fun k =>
    funext fun d => Fin.ext (by match d with | ⟨0, _⟩ => rfl | ⟨1, _⟩ => rfl)
  have eb : idx_main_v99 (idx_main_v100 (ix2 n (0 : Fin 1))) = ix1 (0 : Fin 1) :=
    funext fun d => Fin.ext (by match d with | ⟨0, _⟩ => rfl)
  simp only [val_main_v97_apply, el, er, eb, hs, Ideal.addf_def]
  rfl

/-- Entry (`b`, `a`, `0`) of the result is row `32·b + a` of its flat form. -/
theorem idx_out (b : Fin 2048) (a : Fin 32) :
    idx_main_v102 (ix3 b a (0 : Fin 1)) = ix2 (Comm.flat b a) (0 : Fin 1) :=
  funext fun d => Fin.ext (by
    have hb := b.isLt; have ha := a.isLt
    match d with
    | ⟨0, _⟩ => show ((b.val * 32 + a.val) * 1 + 0) / 1 = 32 * b.val + a.val; omega
    | ⟨1, _⟩ => rfl)

end Stages

/-- From the rows `H` of the reference's state after the first step to its result: entry (`b`, `a`) is the decoder
    of the second GRU step on the mean agent `a` of batch entry `b` receives and on its own state. -/
theorem out_ref (x0 : (⟨S2048x32x128, .f32⟩ : BufTy).Contents (Elt Ideal)) (x2 : (⟨S256x128, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) (x6 : (⟨S768x256, .f32⟩ : BufTy).Contents (Elt Ideal)) (x7 : (⟨S768, .f32⟩ : BufTy).Contents (Elt Ideal))
    (x8 : (⟨S768x256, .f32⟩ : BufTy).Contents (Elt Ideal)) (x9 : (⟨S768, .f32⟩ : BufTy).Contents (Elt Ideal)) (x10 : (⟨S1x256, .f32⟩ : BufTy).Contents (Elt Ideal)) (x11 : (⟨S1, .f32⟩ : BufTy).Contents (Elt Ideal)) (H : Fin 65536 → Comm.Row 256)
    (hH : ∀ n j, val_main_v50 (F := Ideal) x0 x2 x3 x4 x5 x6 x7 x8 x9 (ix2 n j) = H n j) (b : Fin 2048) (a : Fin 32) :
    val_main_v102 (F := Ideal) x0 x2 x3 x4 x5 x6 x7 x8 x9 x10 x11 (ix3 b a 0)
      = Comm.decode (Comm.weightsOf x2 x3 x4 x5 x6 x7 x8 x9 x10 x11)
          (Comm.second (Comm.weightsOf x2 x3 x4 x5 x6 x7 x8 x9 x10 x11)
            (Comm.mean (fun a' => H (Comm.flat b a')) a) (H (Comm.flat b a))) := by
  rw [val_main_v102_apply, idx_out]
  exact decoded x0 x2 x3 x4 x5 x6 x7 x8 x9 x10 x11 _ (Comm.flat b a) fun j =>
    cell x0 x2 x3 x4 x5 x6 x7 x8 x9 _ _ _ (Comm.flat b a)
      (fun g => gates_in x0 x2 x3 x4 x5 x6 x7 x8 x9 x10 x11 _ (Comm.flat b a) (fun k => mean_row x0 x2 x3 x4 x5 x6 x7 x8 x9 H hH b a k) g)
      (fun g => gates_hid x0 x2 x3 x4 x5 x6 x7 x8 x9 x10 x11 H hH (Comm.flat b a) g)
      (fun j' => hH (Comm.flat b a) j') j

end Cert.ReferenceIdeal.Rows

end
-- ==== Proof.RefResult.lean ====
/-
  The reference's result array is the specification's result of its argument arrays.

  Row `32·b + a` of the observations flattened to 65536 rows is agent `a` of batch entry `b`; with that, the
  reference's state after the first GRU step (row by row) and its result from those rows (entry by entry) compose to
  `Comm.result`.
-/
import proofs.«135045_j23081154249051_1_alg».proof.Proof.Gen.ReferenceIdeal.Read
import proofs.«135045_j23081154249051_1_alg».proof.Proof.Comm
import proofs.«135045_j23081154249051_1_alg».proof.Proof.RefState
import proofs.«135045_j23081154249051_1_alg».proof.Proof.RefOut
import Idealize.ShloMosaic.Lib.ValueIdx

noncomputable section

namespace Cert.ReferenceIdeal.Rows

open Cert.ReferenceIdeal Cert.ReferenceIdeal.Read Idealize.ShloMosaic Idealize.ShloMosaic.ValueIdx

/-- Row `32·b + a` of the flattened observations is agent `a` of batch entry `b`. -/
theorem obsRow_flat (x0 : (⟨S2048x32x128, .f32⟩ : BufTy).Contents (Elt Ideal)) (b : Fin 2048) (a : Fin 32) :
    obsRow x0 (Comm.flat b a) = fun d => x0 (ix3 b a d) := by
  funext d
  unfold obsRow
  congr 1
  funext q
  match q with
  | ⟨0, _⟩ => exact Fin.ext (by show (32 * b.val + a.val) / 32 = b.val; omega)
  | ⟨1, _⟩ => exact Fin.ext (by show (32 * b.val + a.val) % 32 = a.val; omega)
  | ⟨2, _⟩ => rfl

/-- The reference's result, as one function of its arguments. -/
theorem result_ref (x0 : (⟨S2048x32x128, .f32⟩ : BufTy).Contents (Elt Ideal)) (x2 : (⟨S256x128, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) (x6 : (⟨S768x256, .f32⟩ : BufTy).Contents (Elt Ideal)) (x7 : (⟨S768, .f32⟩ : BufTy).Contents (Elt Ideal))
    (x8 : (⟨S768x256, .f32⟩ : BufTy).Contents (Elt Ideal)) (x9 : (⟨S768, .f32⟩ : BufTy).Contents (Elt Ideal)) (x10 : (⟨S1x256, .f32⟩ : BufTy).Contents (Elt Ideal)) (x11 : (⟨S1, .f32⟩ : BufTy).Contents (Elt Ideal)) :
    val_main_v102 (F := Ideal) x0 x2 x3 x4 x5 x6 x7 x8 x9 x10 x11 = Comm.result x0 x2 x3 x4 x5 x6 x7 x8 x9 x10 x11 := by
  funext i
  obtain ⟨b, a, u, rfl⟩ : ∃ (b : Fin 2048) (a : Fin 32) (u : Fin 1), i = ix3 b a u := ⟨i 0, i 1, i 2, eq_ix3 i⟩
  obtain rfl : u = 0 := Subsingleton.elim _ _
  rw [out_ref x0 x2 x3 x4 x5 x6 x7 x8 x9 x10 x11
    (fun n => Comm.state1 (Comm.weightsOf x2 x3 x4 x5 x6 x7 x8 x9 x10 x11) (obsRow x0 n))
    (fun n j => state1_ref x0 x2 x3 x4 x5 x6 x7 x8 x9 x10 x11 n j) b a]
  simp only [obsRow_flat]
  rfl

end Cert.ReferenceIdeal.Rows

end
-- ==== Proof.lean ====
/-
  A multi-agent communication network in one fused kernel against its plain reference, equal on the extended reals.

  Each of 65536 agents (2048 batch entries of 32 agents) encodes its observation, clamps at zero, projects, takes a
  GRU step on a zero input, receives the mean of the other 31 agents' states of its batch entry, takes a second GRU
  step on that mean, and decodes one number (`Cert.Comm.result`, Proof/Comm.lean).  The kernel computes this 1024 rows
  at a time (32 whole batch entries per block, so the exchange never leaves a block) with the first step's input gates
  folded to the bias and the division by 32 folded to a product with 1/32; the reference computes it on whole arrays,
  with the sigmoid expanded to `1 / (1 + e^(−x))`.  None of these differences is visible on the extended reals:
  a sum of products with zero is zero, 1/32 is an exact dyadic, and the logistic function is that expression.
  Both results are shown to be `Cert.Comm.result` of the argument arrays (Proof/KernelValue.lean for the kernel,
  Proof/RefResult.lean for the reference); the kernel's frames are the generated ones, the reference's frame is
  its generated run, and the idealization rewrote nothing.
-/
import proofs.«135045_j23081154249051_1_alg».proof.Defs
import proofs.«135045_j23081154249051_1_alg».proof.Proof.Gen.Kernel
import proofs.«135045_j23081154249051_1_alg».proof.Proof.Gen.Kernel.Frame
import proofs.«135045_j23081154249051_1_alg».proof.Proof.Gen.KernelIdeal
import proofs.«135045_j23081154249051_1_alg».proof.Proof.Gen.KernelIdeal.Frame
import proofs.«135045_j23081154249051_1_alg».proof.Proof.Gen.ReferenceIdeal
import proofs.«135045_j23081154249051_1_alg».proof.Proof.Gen.Pre_finite_inputs
import proofs.«135045_j23081154249051_1_alg».proof.Proof.Gen.ReferenceIdeal.Run
import proofs.«135045_j23081154249051_1_alg».proof.Proof.Gen.ReferenceIdeal.Read
import proofs.«135045_j23081154249051_1_alg».proof.Proof.KernelValue
import proofs.«135045_j23081154249051_1_alg».proof.Proof.RefResult
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a host program: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the result array at `Cert.Comm.result` of the (agreeing) argument arrays. -/
theorem algebraic : Cert.algebraic_KernelIdeal_ReferenceIdeal := by
  intro m ρ m' ρ' _ hagree
  refine ⟨fun c => Cert.Comm.result (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v102_eq, Cert.ReferenceIdeal.Rows.result_ref]
  obtain ⟨e0, _, e2, e3, e4, e5, e6, e7, e8, e9, e10, e11⟩ := hagree c
  rw [e0, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
